-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S32x2048x128 .f32) (main_arg1 : FVec F S128x128 .f32) (main_arg2 : FVec F S128x64 .f32) (main_arg3 : FVec F S64x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S2041 : Shape := ⟨1, ![2041]⟩
abbrev S_ : Shape := ⟨0, ![]⟩
abbrev S2041x1 : Shape := ⟨2, ![2041, 1]⟩
abbrev S2041x128 : Shape := ⟨2, ![2041, 128]⟩
abbrev S32x1x1 : Shape := ⟨3, ![32, 1, 1]⟩
abbrev S1x2048x128 : Shape := ⟨3, ![1, 2048, 128]⟩
abbrev S1x1x1 : Shape := ⟨3, ![1, 1, 1]⟩
abbrev S2048x128 : Shape := ⟨2, ![2048, 128]⟩
abbrev S1 : Shape := ⟨1, ![1]⟩
abbrev S1x1 : Shape := ⟨2, ![1, 1]⟩

abbrev nBuf : Space → Nat
  | .hbm => 53
  | .vmem => 6
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128x64, .f32⟩
  | .hbm, ⟨3, _⟩ => ⟨S64x128, .f32⟩
  | .hbm, ⟨4, _⟩ => ⟨S128x128, .f32⟩
  | .hbm, ⟨5, _⟩ => ⟨S2041, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S2041, .i32⟩
  | .hbm, ⟨13, _⟩ => ⟨S2041, .i32⟩
  | .hbm, ⟨14, _⟩ => ⟨S_, .i32⟩
  | .hbm, ⟨15, _⟩ => ⟨S2041, .i32⟩
  | .hbm, ⟨16, _⟩ => ⟨S2041, .i1⟩
  | .hbm, ⟨17, _⟩ => ⟨S_, .i32⟩
  | .hbm, ⟨18, _⟩ => ⟨S2041, .i32⟩
  | .hbm, ⟨19, _⟩ => ⟨S2041, .i1⟩
  | .hbm, ⟨20, _⟩ => ⟨S_, .i32⟩
  | .hbm, ⟨21, _⟩ => ⟨S_, .i1⟩
  | .hbm, ⟨22, _⟩ => ⟨S2041, .i1⟩
  | .hbm, ⟨23, _⟩ => ⟨S2041, .i1⟩
  | .hbm, ⟨24, _⟩ => ⟨S2041, .i1⟩
  | .hbm, ⟨25, _⟩ => ⟨S2041, .i32⟩
  | .hbm, ⟨26, _⟩ => ⟨S2041, .i32⟩
  | .hbm, ⟨27, _⟩ => ⟨S2041, .i32⟩
  | .hbm, ⟨28, _⟩ => ⟨S64x128, .f32⟩
  | .hbm, ⟨29, _⟩ => ⟨S_, .i32⟩
  | .hbm, ⟨30, _⟩ => ⟨S2041, .i32⟩
  | .hbm, ⟨31, _⟩ => ⟨S2041, .i1⟩
  | .hbm, ⟨32, _⟩ => ⟨S_, .i32⟩
  | .hbm, ⟨33, _⟩ => ⟨S2041, .i32⟩
  | .hbm, ⟨34, _⟩ => ⟨S2041, .i32⟩
  | .hbm, ⟨35, _⟩ => ⟨S2041, .i32⟩
  | .hbm, ⟨36, _⟩ => ⟨S2041x1, .i32⟩
  | .hbm, ⟨37, _⟩ => ⟨S2041x128, .f32⟩
  | .hbm, ⟨38, _⟩ => ⟨S_, .i32⟩
  | .hbm, ⟨39, _⟩ => ⟨S2041, .i32⟩
  | .hbm, ⟨40, _⟩ => ⟨S2041, .i1⟩
  | .hbm, ⟨41, _⟩ => ⟨S_, .i32⟩
  | .hbm, ⟨42, _⟩ => ⟨S2041, .i32⟩
  | .hbm, ⟨43, _⟩ => ⟨S2041, .i32⟩
  | .hbm, ⟨44, _⟩ => ⟨S2041, .i32⟩
  | .hbm, ⟨45, _⟩ => ⟨S2041x1, .i32⟩
  | .hbm, ⟨46, _⟩ => ⟨S2041x128, .f32⟩
  | .hbm, ⟨47, _⟩ => ⟨S2041x128, .f32⟩
  | .hbm, ⟨48, _⟩ => ⟨S32x1x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S2041x128, .f32⟩
  | .local _ .vmem, ⟨4, _⟩ => ⟨S1x1x1, .f32⟩
  | .local _ .vmem, ⟨5, _⟩ => ⟨S1x1x1, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2041x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  bcast_S_S2041 : S_.BroadcastsInDim S2041 (![] : Fin 0 → Fin S2041.rank)
  transposes_S128x64_S64x128_1_0 : S128x64.Transposes [1, 0] S64x128
  bcast_S2041_S2041x1_0 : S2041.BroadcastsInDim S2041x1 (![0] : Fin 1 → Fin S2041x1.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S2048x128_o0_0_S2041x128 : S2048x128.Slices ![0, 0] S2041x128
  slices_S2048x128_o1_0_S2041x128 : S2048x128.Slices ![1, 0] S2041x128
  slices_S2048x128_o2_0_S2041x128 : S2048x128.Slices ![2, 0] S2041x128
  slices_S2048x128_o3_0_S2041x128 : S2048x128.Slices ![3, 0] S2041x128
  slices_S2048x128_o4_0_S2041x128 : S2048x128.Slices ![4, 0] S2041x128
  slices_S2048x128_o5_0_S2041x128 : S2048x128.Slices ![5, 0] S2041x128
  slices_S2048x128_o6_0_S2041x128 : S2048x128.Slices ![6, 0] S2041x128
  slices_S2048x128_o7_0_S2041x128 : S2048x128.Slices ![7, 0] S2041x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2041x128_S2041x128_0_0 : ∀ a, (![0, 0] : Fin 2 → Nat) a + S2041x128.size a ≤ S2041x128.size a
  h_S2041x128 : 0 < S2041x128.numel
  shapeCasts_S2041x128_S2041x128 : S2041x128.ShapeCasts S2041x128
  reduces_S2041x128_S2041 : S2041x128.Reduces [1] S2041
  shapeCasts_S2041_S2041x1 : S2041.ShapeCasts S2041x1
  reduces_S2041x1_S1 : S2041x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  gather_S64x128_S2041x1_S2041x128_1_0_n_n_0_1_1128_wf : GatherDims.WF S64x128 S2041x1 S2041x128 [1] [0] [] [0] [] 1 ![1, 128]
  dot_S2041x128_S128x128_S2041x128_1_0_0_1_n_n_wf : DotDims.WF S2041x128 S128x128 S2041x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2041x128.size a ≤ S2041x128.size a
  hwx0_2 : ∀ i : grid0.Coords, EltTy.bits .f32 = 32 ∨ (Rect.block (s := S2041x128) S2041x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)

variable [Facts₀]

def gather_S64x128_S2041x1_S2041x128_1_0_n_n_0_1_1128 : GatherDims S64x128 S2041x1 S2041x128 where
  offsetDims := [1]
  collapsedSliceDims := [0]
  operandBatchingDims := []
  startIndicesBatchingDims := []
  startIndexMap := [0]
  indexVectorDim := 1
  sliceSizes := ![1, 128]
  wf := gather_S64x128_S2041x1_S2041x128_1_0_n_n_0_1_1128_wf
def dot_S2041x128_S128x128_S2041x128_1_0_0_1_n_n : DotDims S2041x128 S128x128 S2041x128 where
  lhsContracting := [1]
  rhsContracting := [0]
  lhsNonContracting := [0]
  rhsNonContracting := [1]
  lhsBatch := []
  rhsBatch := []
  wf := dot_S2041x128_S128x128_S2041x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2041x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S128x128 : Shape := ⟨2, ![128, 128]⟩
abbrev S128x64 : Shape := ⟨2, ![128, 64]⟩
abbrev S64x128 : Shape := ⟨2, ![64, 128]⟩
abbrev S2041 : Shape := ⟨1, ![2041]⟩
abbrev S2041x1 : Shape := ⟨2, ![2041, 1]⟩
abbrev S8 : Shape := ⟨1, ![8]⟩
abbrev S1x8 : Shape := ⟨2, ![1, 8]⟩
abbrev S2041x8 : Shape := ⟨2, ![2041, 8]⟩
abbrev S_ : Shape := ⟨0, ![]⟩
abbrev S2041x8x1 : Shape := ⟨3, ![2041, 8, 1]⟩
abbrev S32x2041x8x128 : Shape := ⟨4, ![32, 2041, 8, 128]⟩
abbrev S32x2041x128 : Shape := ⟨3, ![32, 2041, 128]⟩
abbrev S2041x128 : Shape := ⟨2, ![2041, 128]⟩
abbrev S1x2041x128 : Shape := ⟨3, ![1, 2041, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S128x128, .f32⟩
  | .hbm, ⟨2, _⟩ => ⟨S128x64, .f32⟩
  | .hbm, ⟨3, _⟩ => ⟨S64x128, .f32⟩
  | .hbm, ⟨4, _⟩ => ⟨S2041, .i32⟩
  | .hbm, ⟨5, _⟩ => ⟨S2041x1, .i32⟩
  | .hbm, ⟨6, _⟩ => ⟨S8, .i32⟩
  | .hbm, ⟨7, _⟩ => ⟨S1x8, .i32⟩
  | .hbm, ⟨8, _⟩ => ⟨S2041x8, .i32⟩
  | .hbm, ⟨9, _⟩ => ⟨S2041x8, .i32⟩
  | .hbm, ⟨10, _⟩ => ⟨S2041x8, .i32⟩
  | .hbm, ⟨11, _⟩ => ⟨S_, .i32⟩
  | .hbm, ⟨12, _⟩ => ⟨S2041x8, .i32⟩
  | .hbm, ⟨13, _⟩ => ⟨S2041x8, .i1⟩
  | .hbm, ⟨14, _⟩ => ⟨S_, .i32⟩
  | .hbm, ⟨15, _⟩ => ⟨S2041x8, .i32⟩
  | .hbm, ⟨16, _⟩ => ⟨S2041x8, .i32⟩
  | .hbm, ⟨17, _⟩ => ⟨S2041x8, .i32⟩
  | .hbm, ⟨18, _⟩ => ⟨S2041x8x1, .i32⟩
  | .hbm, ⟨19, _⟩ => ⟨S32x2041x8x128, .f32⟩
  | .hbm, ⟨20, _⟩ => ⟨S_, .f32⟩
  | .hbm, ⟨21, _⟩ => ⟨S32x2041x128, .f32⟩
  | .hbm, ⟨22, _⟩ => ⟨S_, .f32⟩
  | .hbm, ⟨23, _⟩ => ⟨S32x2041x128, .f32⟩
  | .hbm, ⟨24, _⟩ => ⟨S32x2041x128, .f32⟩
  | .hbm, ⟨25, _⟩ => ⟨S32x2041x128, .f32⟩
  | .hbm, ⟨26, _⟩ => ⟨S2041, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2041, .i32⟩
  | .hbm, ⟨34, _⟩ => ⟨S2041, .i32⟩
  | .hbm, ⟨35, _⟩ => ⟨S_, .i32⟩
  | .hbm, ⟨36, _⟩ => ⟨S2041, .i32⟩
  | .hbm, ⟨37, _⟩ => ⟨S2041, .i1⟩
  | .hbm, ⟨38, _⟩ => ⟨S_, .i32⟩
  | .hbm, ⟨39, _⟩ => ⟨S2041, .i32⟩
  | .hbm, ⟨40, _⟩ => ⟨S2041, .i1⟩
  | .hbm, ⟨41, _⟩ => ⟨S_, .i32⟩
  | .hbm, ⟨42, _⟩ => ⟨S_, .i1⟩
  | .hbm, ⟨43, _⟩ => ⟨S2041, .i1⟩
  | .hbm, ⟨44, _⟩ => ⟨S2041, .i1⟩
  | .hbm, ⟨45, _⟩ => ⟨S2041, .i1⟩
  | .hbm, ⟨46, _⟩ => ⟨S2041, .i32⟩
  | .hbm, ⟨47, _⟩ => ⟨S2041, .i32⟩
  | .hbm, ⟨48, _⟩ => ⟨S2041, .i32⟩
  | .hbm, ⟨49, _⟩ => ⟨S64x128, .f32⟩
  | .hbm, ⟨50, _⟩ => ⟨S_, .i32⟩
  | .hbm, ⟨51, _⟩ => ⟨S2041, .i32⟩
  | .hbm, ⟨52, _⟩ => ⟨S2041, .i1⟩
  | .hbm, ⟨53, _⟩ => ⟨S_, .i32⟩
  | .hbm, ⟨54, _⟩ => ⟨S2041, .i32⟩
  | .hbm, ⟨55, _⟩ => ⟨S2041, .i32⟩
  | .hbm, ⟨56, _⟩ => ⟨S2041, .i32⟩
  | .hbm, ⟨57, _⟩ => ⟨S2041x1, .i32⟩
  | .hbm, ⟨58, _⟩ => ⟨S2041x128, .f32⟩
  | .hbm, ⟨59, _⟩ => ⟨S_, .i32⟩
  | .hbm, ⟨60, _⟩ => ⟨S2041, .i32⟩
  | .hbm, ⟨61, _⟩ => ⟨S2041, .i1⟩
  | .hbm, ⟨62, _⟩ => ⟨S_, .i32⟩
  | .hbm, ⟨63, _⟩ => ⟨S2041, .i32⟩
  | .hbm, ⟨64, _⟩ => ⟨S2041, .i32⟩
  | .hbm, ⟨65, _⟩ => ⟨S2041, .i32⟩
  | .hbm, ⟨66, _⟩ => ⟨S2041x1, .i32⟩
  | .hbm, ⟨67, _⟩ => ⟨S2041x128, .f32⟩
  | .hbm, ⟨68, _⟩ => ⟨S2041x128, .f32⟩
  | .hbm, ⟨69, _⟩ => ⟨S1x2041x128, .f32⟩
  | .hbm, ⟨70, _⟩ => ⟨S32x2041x128, .f32⟩
  | .hbm, ⟨71, _⟩ => ⟨S32x2041x128, .f32⟩
  | .hbm, ⟨72, _⟩ => ⟨S32x2041x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩

abbrev nD : Nat := 1
abbrev τ : Topo := Topo.v7x

variable {F : FTy → Type} [FloatOps F]

class Facts₀ : Prop where
  bcast_S2041_S2041x1_0 : S2041.BroadcastsInDim S2041x1 (![0] : Fin 1 → Fin S2041x1.rank)
  bcast_S8_S1x8_1 : S8.BroadcastsInDim S1x8 (![1] : Fin 1 → Fin S1x8.rank)
  bcast_S2041x1_S2041x8_0_1 : S2041x1.BroadcastsInDim S2041x8 (![0, 1] : Fin 2 → Fin S2041x8.rank)
  bcast_S1x8_S2041x8_0_1 : S1x8.BroadcastsInDim S2041x8 (![0, 1] : Fin 2 → Fin S2041x8.rank)
  bcast_S_S2041x8 : S_.BroadcastsInDim S2041x8 (![] : Fin 0 → Fin S2041x8.rank)
  bcast_S2041x8_S2041x8x1_0_1 : S2041x8.BroadcastsInDim S2041x8x1 (![0, 1] : Fin 2 → Fin S2041x8x1.rank)
  reducesTo_S32x2041x8x128_S32x2041x128_d2 : S32x2041x8x128.ReducesTo [2] S32x2041x128
  h_S_ : 0 < S_.numel
  bcast_S_S32x2041x128 : S_.BroadcastsInDim S32x2041x128 (![] : Fin 0 → Fin S32x2041x128.rank)
  bcast_S_S2041 : S_.BroadcastsInDim S2041 (![] : Fin 0 → Fin S2041.rank)
  transposes_S128x64_S64x128_1_0 : S128x64.Transposes [1, 0] S64x128
  bcast_S2041x128_S1x2041x128_1_2 : S2041x128.BroadcastsInDim S1x2041x128 (![1, 2] : Fin 2 → Fin S1x2041x128.rank)
  bcast_S1x2041x128_S32x2041x128_0_1_2 : S1x2041x128.BroadcastsInDim S32x2041x128 (![0, 1, 2] : Fin 3 → Fin S32x2041x128.rank)
  reducesTo_S32x2041x128_S_d0_1_2 : S32x2041x128.ReducesTo [0, 1, 2] S_
  gather_S32x2048x128_S2041x8x1_S32x2041x8x128_03_1_n_n_1_2_321128_wf : GatherDims.WF S32x2048x128 S2041x8x1 S32x2041x8x128 [0, 3] [1] [] [1] [] 2 ![32, 1, 128]
  dot_S32x2041x128_S128x128_S32x2041x128_2_1_01_0_n_n_wf : DotDims.WF S32x2041x128 S128x128 S32x2041x128 [2] [1] [0, 1] [0] [] []
  gather_S64x128_S2041x1_S2041x128_1_0_n_n_0_1_1128_wf : GatherDims.WF S64x128 S2041x1 S2041x128 [1] [0] [] [0] [] 1 ![1, 128]

variable [Facts₀]

def gather_S32x2048x128_S2041x8x1_S32x2041x8x128_03_1_n_n_1_2_321128 : GatherDims S32x2048x128 S2041x8x1 S32x2041x8x128 where
  offsetDims := [0, 3]
  collapsedSliceDims := [1]
  operandBatchingDims := []
  startIndicesBatchingDims := []
  startIndexMap := [1]
  indexVectorDim := 2
  sliceSizes := ![32, 1, 128]
  wf := gather_S32x2048x128_S2041x8x1_S32x2041x8x128_03_1_n_n_1_2_321128_wf
def dot_S32x2041x128_S128x128_S32x2041x128_2_1_01_0_n_n : DotDims S32x2041x128 S128x128 S32x2041x128 where
  lhsContracting := [2]
  rhsContracting := [1]
  lhsNonContracting := [0, 1]
  rhsNonContracting := [0]
  lhsBatch := []
  rhsBatch := []
  wf := dot_S32x2041x128_S128x128_S32x2041x128_2_1_01_0_n_n_wf
def gather_S64x128_S2041x1_S2041x128_1_0_n_n_0_1_1128 : GatherDims S64x128 S2041x1 S2041x128 where
  offsetDims := [1]
  collapsedSliceDims := [0]
  operandBatchingDims := []
  startIndicesBatchingDims := []
  startIndexMap := [0]
  indexVectorDim := 1
  sliceSizes := ![1, 128]
  wf := gather_S64x128_S2041x1_S2041x128_1_0_n_n_0_1_1128_wf

class Facts : Prop extends Facts₀ where

variable [Facts]
-- ==== Proof.Spec.lean ====
/-
  The common mathematics of the two programs, over plain finite index types.

  For one batch row x (2048 rows of 128 features), a 128 × 128 matrix M and a target table t (2041 rows of 128):
  the window starting at row w covers rows w, …, w + 7; its mean is the sum of the eight rows times 1/8; the linear map
  sends feature vector v to n ↦ Σ_κ v κ · M n κ; the deviation at (w, n) is the mapped window mean minus t (w, n).
-/
import Idealize.ShloMosaic.PureOps.Ideal
import Idealize.ShloMosaic.Lib.ValueIdx

noncomputable section

open scoped BigOperators

namespace Cert.Spec

open Idealize.ShloMosaic Idealize.ShloMosaic.ValueIdx

/-- Row r of the window that starts at row w. -/
def rowOf (w : Fin 2041) (r : Fin 8) : Fin 2048 := ⟨w.val + r.val, by omega⟩

/-- The mean of the window starting at row w, feature κ: the sum of its eight rows times 1/8. -/
def wmean (x : Fin 2048 → Fin 128 → EReal) (w : Fin 2041) (κ : Fin 128) : EReal :=
  (∑ r : Fin 8, x (rowOf w r) κ) * ((1 / 8 : ℝ) : EReal)

/-- The deviation at window w, output feature n. -/
def dev (x : Fin 2048 → Fin 128 → EReal) (M : Fin 128 → Fin 128 → EReal) (t : Fin 2041 → Fin 128 → EReal)
    (w : Fin 2041) (n : Fin 128) : EReal :=
  (∑ κ : Fin 128, wmean x w κ * M n κ) - t w n

/-- Its square. -/
def sqdev (x : Fin 2048 → Fin 128 → EReal) (M : Fin 128 → Fin 128 → EReal) (t : Fin 2041 → Fin 128 → EReal)
    (w : Fin 2041) (n : Fin 128) : EReal :=
  dev x M t w n * dev x M t w n

/-- The sum of the squared deviations of one batch row. -/
def rowTotal (x : Fin 2048 → Fin 128 → EReal) (M : Fin 128 → Fin 128 → EReal) (t : Fin 2041 → Fin 128 → EReal) : EReal :=
  ∑ w : Fin 2041, ∑ n : Fin 128, sqdev x M t w n

/-- The indices of a rank-3 box are the triples of its coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over a rank-3 box is the triple sum over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp idxEquiv3.symm f, Fintype.sum_prod_type]
  refine Finset.sum_congr rfl fun a _ => ?_
  rw [Fintype.sum_prod_type]
  rfl

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KernelPayload.lean ====
/-
  The kernel body's stored value: for one batch row's block, the matrix block and the target block, the one stored
  entry is the sum over all windows and output features of the squared deviations.
-/
import proofs.«163653_j2740189135096_1_alg».proof.Proof.Gen.KernelIdeal.Skeleton
import proofs.«163653_j2740189135096_1_alg».proof.Proof.Spec
import proofs.«163653_j2740189135096_1_alg».proof.Proof.LibPlainDot
import Idealize.ShloMosaic.PureOps.Ideal.Laws
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-! ## The two constants of the body -/

/-- The word 0x3E000000 denotes one eighth: sign 0, exponent field 124, fraction 0, so 2^23 · 2^(124 − 127 − 23). -/
theorem ofBits_eighth : Ideal.ofBits .f32 0x3E000000#32 = ((1 / 8 : ℝ) : EReal) := by
  simp [Ideal.ofBits, Ideal.ieee, -EReal.coe_mul]; norm_num

/-- The product's dimension numbers are the plain ones: the left operand's columns against the right operand's rows,
    no batch axes. -/
theorem dot_plain : PlainDot.IsPlain dot_S2041x128_S128x128_S2041x128_1_0_0_1_n_n :=
  ⟨rfl, rfl, rfl, rfl, rfl, rfl⟩

/-! ## The window sums -/

/-- The block of 2041 rows starting at row o, read at (w, κ), is row w + o of the batch row: row o of the window
    that starts at w. -/
theorem win_apply (x0 : FVec Ideal S1x2048x128 .f32) (hc : S1x2048x128.ShapeCasts S2048x128) (o : Nat) (ho : o < 8)
    (hs : S2048x128.Slices ![o, 0] S2041x128) (w : Fin 2041) (κ : Fin 128) :
    extractStridedSlice S2041x128 ![o, 0] (shapeCast S2048x128 x0 hc) hs (ix2 w κ)
      = x0 (ix3 (0 : Fin 1) (Cert.Spec.rowOf w ⟨o, ho⟩) κ) :=
  (slice2_axis0_apply o (shapeCast S2048x128 x0 hc) hs w κ (Cert.Spec.rowOf w ⟨o, ho⟩)
      (show w.val + o = o + w.val from Nat.add_comm _ _)).trans
    (shapeCast_1ab_ab_apply x0 hc _ _)

/-- The eight shifted blocks added left to right, read at (w, κ): the sum over the eight rows of the window at w. -/
theorem winsum_apply (x0 : FVec Ideal S1x2048x128 .f32) (hc : S1x2048x128.ShapeCasts S2048x128)
    (h0 : S2048x128.Slices ![0, 0] S2041x128) (h1 : S2048x128.Slices ![1, 0] S2041x128)
    (h2 : S2048x128.Slices ![2, 0] S2041x128) (h3 : S2048x128.Slices ![3, 0] S2041x128)
    (h4 : S2048x128.Slices ![4, 0] S2041x128) (h5 : S2048x128.Slices ![5, 0] S2041x128)
    (h6 : S2048x128.Slices ![6, 0] S2041x128) (h7 : S2048x128.Slices ![7, 0] S2041x128)
    (w : Fin 2041) (κ : Fin 128) :
    addf (addf (addf (addf (addf (addf (addf
        (extractStridedSlice S2041x128 ![0, 0] (shapeCast S2048x128 x0 hc) h0)
        (extractStridedSlice S2041x128 ![1, 0] (shapeCast S2048x128 x0 hc) h1))
        (extractStridedSlice S2041x128 ![2, 0] (shapeCast S2048x128 x0 hc) h2))
        (extractStridedSlice S2041x128 ![3, 0] (shapeCast S2048x128 x0 hc) h3))
        (extractStridedSlice S2041x128 ![4, 0] (shapeCast S2048x128 x0 hc) h4))
        (extractStridedSlice S2041x128 ![5, 0] (shapeCast S2048x128 x0 hc) h5))
        (extractStridedSlice S2041x128 ![6, 0] (shapeCast S2048x128 x0 hc) h6))
        (extractStridedSlice S2041x128 ![7, 0] (shapeCast S2048x128 x0 hc) h7) (ix2 w κ)
      = ∑ r : Fin 8, x0 (ix3 (0 : Fin 1) (Cert.Spec.rowOf w r) κ) := by
  rw [Fin.sum_univ_eight]
  simp only [addf_apply]
  rw [win_apply x0 hc 0 (by omega) h0 w κ, win_apply x0 hc 1 (by omega) h1 w κ, win_apply x0 hc 2 (by omega) h2 w κ,
    win_apply x0 hc 3 (by omega) h3 w κ, win_apply x0 hc 4 (by omega) h4 w κ, win_apply x0 hc 5 (by omega) h5 w κ,
    win_apply x0 hc 6 (by omega) h6 w κ, win_apply x0 hc 7 (by omega) h7 w κ]
  rfl

/-! ## The deviation -/

/-- The product of the scaled window sums with the matrix block, minus the target block, read at (w, n): the
    deviation at window w, output feature n. The matrix block is read at (κ, n). -/
theorem dev_apply (W : FVec Ideal S2041x128 .f32) (X : Fin 2048 → Fin 128 → EReal)
    (x1 : FVec Ideal S128x128 .f32) (x2 : FVec Ideal S2041x128 .f32)
    (hb : FTy.bits .bf16 < FTy.bits .f32) (hc1 : S128x128.ShapeCasts S128x128) (hc2 : S2041x128.ShapeCasts S2041x128)
    (w : Fin 2041) (n : Fin 128) (hW : ∀ κ : Fin 128, W (ix2 w κ) = ∑ r : Fin 8, X (Cert.Spec.rowOf w r) κ) :
    subf
        (matmul dot_S2041x128_S128x128_S2041x128_1_0_0_1_n_n none
          (truncf .bf16 (mulf W (broadcast S2041x128 (Scalar.ofBits (F := Ideal) .f32 0x3E000000#32))) hb)
          (truncf .bf16 (shapeCast S128x128 x1 hc1) hb)
          (constant (F := Ideal) S2041x128 .f32 0x00000000#32))
        (shapeCast S2041x128 x2 hc2) (ix2 w n)
      = Cert.Spec.dev X (fun n κ => x1 (ix2 κ n)) (fun w n => x2 (ix2 w n)) w n := by
  unfold Cert.Spec.dev Cert.Spec.wmean
  rw [subf_apply, shapeCast_self x2 hc2, shapeCast_self x1 hc1]
  refine congrArg (· - x2 (ix2 w n)) ?_
  refine (PlainDot.matmul_zero_plain _ dot_plain none _ _ w n).trans ?_
  refine Finset.sum_congr rfl fun κ _ => ?_
  rw [truncf_apply, truncf_apply, mulf_apply, broadcast_apply, hW κ]
  show _ * Ideal.ofBits .f32 0x3E000000#32 * _ = _
  rw [ofBits_eighth]

/-! ## The two sums and the unit casts between them -/

/-- The sum over the lanes, read at window w: the sum over the 128 output features. -/
theorem lanesum_apply (v : FVec Ideal S2041x128 .f32) (h : S2041x128.Reduces [1] S2041) (hφ : FKind.Formats .f32)
    (hacc : (0x00000000#32 : BitVec 32) = FKind.add.neutral .f32 hφ) (w : Fin 2041) :
    multiReduction (F := Ideal) .add [1] S2041 v 0x00000000#32 h hφ hacc (ix1 w) = ∑ n : Fin 128, v (ix2 w n) := by
  refine (Ideal.multiReduction_add_single v _ h hφ hacc (ix1 w)).trans ?_
  show ∑ n : Fin 128, v (h.lift (ix1 w) n) = _
  refine Finset.sum_congr rfl fun n _ => congrArg v ?_
  funext a
  match a with
  | ⟨0, _⟩ => exact Fin.ext rfl
  | ⟨1, _⟩ => exact Fin.ext rfl

/-- 2041 entries viewed as 2041 rows of one entry: row w holds entry w. -/
theorem cast_col_apply (v : FVec Ideal S2041 .f32) (h : S2041.ShapeCasts S2041x1) (w : Fin 2041) :
    shapeCast S2041x1 v h (ix2 w (0 : Fin 1)) = v (ix1 w) :=
  shapeCast_apply v h _ _ (by
    rw [Shape.rowMajor_val_one, Shape.rowMajor_val_two]
    show w.val = w.val * 1 + 0
    omega)

/-- The sum down the one column: the sum over the 2041 windows. -/
theorem colsum_apply (v : FVec Ideal S2041x1 .f32) (h : S2041x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1))
      = ∑ w : Fin 2041, v (ix2 w (0 : Fin 1)) := by
  refine (Ideal.multiReduction_add_single v _ h hφ hacc (ix1 0)).trans ?_
  show ∑ w : Fin 2041, v (h.lift (ix1 0) w) = _
  refine Finset.sum_congr rfl fun w _ => congrArg v ?_
  funext a
  match a with
  | ⟨0, _⟩ => exact Fin.ext rfl
  | ⟨1, _⟩ => exact Fin.ext rfl

/-! ## The stored entry -/

/-- The stored entry. The matrix block is read TRANSPOSED: the body multiplies row κ, column n of its block. -/
theorem pay_apply (x0 : Vec Ideal S1x2048x128 .f32) (x1 : Vec Ideal S128x128 .f32) (x2 : Vec Ideal S2041x128 .f32)
    (j : S1x1x1.Idx) :
    k0_pay1 (F := Ideal) x0 x1 x2 j
      = Cert.Spec.rowTotal (fun p κ => x0 (ix3 (0 : Fin 1) p κ)) (fun n κ => x1 (ix2 κ n)) (fun w n => x2 (ix2 w n)) := by
  obtain rfl : j = ix3 (0 : Fin 1) (0 : Fin 1) (0 : Fin 1) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  unfold k0_pay1
  dsimp only
  refine (shapeCast_ab_1ab_apply _ _ 0 0 0).trans ?_
  refine (shapeCast_a_1a_apply _ _ 0 0).trans ?_
  refine (colsum_apply _ _ _ _).trans ?_
  unfold Cert.Spec.rowTotal
  refine Finset.sum_congr rfl fun w _ => ?_
  refine (cast_col_apply _ _ w).trans ?_
  refine (lanesum_apply _ _ _ _ w).trans ?_
  refine Finset.sum_congr rfl fun n _ => ?_
  refine (mulf_apply _ _ _).trans ?_
  unfold Cert.Spec.sqdev
  refine congrArg₂ (· * ·) (dev_apply _ (fun p κ => x0 (ix3 (0 : Fin 1) p κ)) x1 x2 _ _ _ w n ?_)
    (dev_apply _ (fun p κ => x0 (ix3 (0 : Fin 1) p κ)) x1 x2 _ _ _ w n ?_)
  · exact fun κ => winsum_apply x0 _ _ _ _ _ _ _ _ _ w κ
  · exact fun κ => winsum_apply x0 _ _ _ _ _ _ _ _ _ w κ

end Cert.KernelIdeal.Hand

end
-- ==== Proof.KernelValue.lean ====
/-
  The kernel's result array after the launch. Grid point t handles batch row t: its first window's block is batch row
  t of the first argument, its second and third windows' blocks are the whole transposed matrix and the whole target
  table, and its output block is the single entry (t, 0, 0). So entry (b, 0, 0) of the result array is the sum over
  all windows and output features of the squared deviations of batch row b.
-/
import proofs.«163653_j2740189135096_1_alg».proof.Proof.Gen.KernelIdeal.Frame
import proofs.«163653_j2740189135096_1_alg».proof.Proof.KernelPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Idealize.ShloMosaic.ValueIdx

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The three arrays the launch reads, at their literal types. -/
abbrev xarr (c : Dev nD) : S32x2048x128.Idx → EReal := V m c main_arg0
abbrev marr (c : Dev nD) : S128x128.Idx → EReal := V m c main_v0
abbrev tarr (c : Dev nD) : S2041x128.Idx → EReal := V m c main_v18

/-- The input blocks of grid point t, at their literal types. -/
abbrev xblk (c : Dev nD) (t : Fin cfg0.N) : Vec Ideal S1x2048x128 .f32 := iblk m c 0 t
abbrev mblk (c : Dev nD) (t : Fin cfg0.N) : Vec Ideal S128x128 .f32 := iblk m c 1 t
abbrev tblk (c : Dev nD) (t : Fin cfg0.N) : Vec Ideal S2041x128 .f32 := iblk m c 2 t

/-- The printed index maps, decided over the grid: the first window's block index is (t, 0, 0), the second's and the
    third's (0, 0), the output's (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Row p, feature κ of the first window's block at point t is entry (t, p, κ) of the first argument. -/
theorem xblk_apply (c : Dev nD) (t : Fin cfg0.N) (p : Fin 2048) (κ : Fin 128) (ht : t.val < 32) :
    xblk m c t (ix3 (0 : Fin 1) p κ) = xarr m c (ix3 ⟨t.val, ht⟩ p κ) := by
  obtain ⟨e0, e1, e2, -⟩ := idx_facts t
  show V m c main_arg0 (((cfg0.win 0).blk t).view.emb (ix3 (0 : Fin 1) p κ)) = V m c main_arg0 (ix3 ⟨t.val, ht⟩ p κ)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 128 + 1 * κ.val = κ.val; omega

/-- The second window's block is the whole transposed matrix. -/
theorem mblk_apply (c : Dev nD) (t : Fin cfg0.N) (κ n : Fin 128) :
    mblk m c t (ix2 κ n) = marr m c (ix2 κ n) := by
  obtain ⟨-, -, -, e0, e1, -⟩ := idx_facts t
  show V m c main_v0 (((cfg0.win 1).blk t).view.emb (ix2 κ n)) = V m c main_v0 (ix2 κ n)
  refine congrArg (V m c main_v0) (funext fun a => Fin.ext ?_)
  match a with
  | ⟨0, _⟩ => show win0_1.index t (0 : Fin 2) * 128 + 1 * κ.val = κ.val; omega
  | ⟨1, _⟩ => show win0_1.index t (1 : Fin 2) * 128 + 1 * n.val = n.val; omega

/-- The third window's block is the whole target table. -/
theorem tblk_apply (c : Dev nD) (t : Fin cfg0.N) (w : Fin 2041) (n : Fin 128) :
    tblk m c t (ix2 w n) = tarr m c (ix2 w n) := by
  obtain ⟨-, -, -, -, -, e0, e1, -⟩ := idx_facts t
  show V m c main_v18 (((cfg0.win 2).blk t).view.emb (ix2 w n)) = V m c main_v18 (ix2 w n)
  refine congrArg (V m c main_v18) (funext fun a => Fin.ext ?_)
  match a with
  | ⟨0, _⟩ => show win0_2.index t (0 : Fin 2) * 2041 + 1 * w.val = w.val; omega
  | ⟨1, _⟩ => show win0_2.index t (1 : Fin 2) * 128 + 1 * n.val = n.val; omega

/-- The sum of the squared deviations of batch row b, over the arrays as the launch finds them. -/
def rowSum (c : Dev nD) (b : Fin 32) : EReal :=
  Cert.Spec.rowTotal (fun p κ => xarr m c (ix3 b p κ)) (fun n κ => marr m c (ix2 κ n)) (fun w n => tarr m c (ix2 w n))

/-- What the result array ends holding: entry (b, 0, 0) is batch row b's sum. -/
def outArr (c : Dev nD) : S32x1x1.Idx → EReal := fun i => rowSum m c ⟨(i 0).val, (i 0).isLt⟩

/-- WHAT POINT t WRITES BACK is block t of `outArr`. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz3]
  simp only [View.ld_unit_zero (S := S1x2048x128) hz3, View.ld_unit_zero (S := S128x128) hz2,
    View.ld_unit_zero (S := S2041x128) hz2]
  have ht : t.val < 32 := lt_of_lt_of_eq t.isLt N_0
  obtain ⟨-, -, -, -, -, -, -, e0, e1, e2⟩ := idx_facts t
  funext j
  refine (pay_apply (xblk m c t) (mblk m c t) (tblk m c t) j).trans ?_
  show _ = outArr m c (((cfg0.win 3).blk t).view.emb j)
  unfold outArr rowSum
  have hb : (⟨((((cfg0.win 3).blk t).view.emb j) 0).val, ((((cfg0.win 3).blk t).view.emb j) 0).isLt⟩ : Fin 32) = ⟨t.val, ht⟩ := by
    apply Fin.ext
    show win0_3.index t (0 : Fin 3) * 1 + 1 * (j 0).val = t.val
    have hj : (j 0).val < 1 := (j 0).isLt
    omega
  rw [hb]
  unfold Cert.Spec.rowTotal Cert.Spec.sqdev Cert.Spec.dev Cert.Spec.wmean
  simp only [xblk_apply m c t _ _ ht, mblk_apply m c t, tblk_apply m c t]

/-- An index of the result array is in point t's block iff its first coordinate is t (the others are 0). -/
theorem mem_blk (t : Fin cfg0.N) (i : S32x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v19).slice (win0_3.rect t)).set ↔ _
  rw [View.set_slice_whole, Rect.mem_set_unit]
  exact Iff.rfl

/-- THE RESULT ARRAY after the launch. -/
theorem final (c : Dev nD) : (dats m 0 c).arrAt 3 cfg0.N = outArr m c :=
  (dats m 0 c).arrAt_eq_of_cover 3 (outArr m c) (fun t _ => flushed_eq m c t) fun i => by
    have h0 : (i 0).val < 32 := (i 0).isLt
    have h1 : (i 1).val < 1 := (i 1).isLt
    have h2 : (i 2).val < 1 := (i 2).isLt
    have hN : (i 0).val < cfg0.N := lt_of_lt_of_eq h0 N_0.symm
    refine ⟨⟨(i 0).val, hN⟩, flush0_3 _, ?_⟩
    rw [mem_blk]
    obtain ⟨-, -, -, -, -, -, -, e0, e1, e2⟩ := idx_facts ⟨(i 0).val, hN⟩
    have e0 : win0_3.index ⟨(i 0).val, hN⟩ (0 : Fin 3) = (i 0).val := e0
    intro a
    match a with
    | ⟨0, _⟩ => show win0_3.index _ (0 : Fin 3) * 1 ≤ (i 0).val ∧ (i 0).val < win0_3.index _ (0 : Fin 3) * 1 + 1; rw [e0]; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 1 ≤ (i 2).val ∧ (i 2).val < win0_3.index _ (2 : Fin 3) * 1 + 1; rw [e2]; omega

end Cert.KernelIdeal.Hand

end
-- ==== Proof.KernelTail.lean ====
/-
  The kernel program's run with its result named: after the launch two host operations sum the result array's 32
  entries and divide by the number of squared deviations, 32 · 2041 · 128 = 8359936.
-/
import proofs.«163653_j2740189135096_1_alg».proof.Proof.KernelValue
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

/-- The total of the per-row sums over the number of squared deviations. -/
def meanOfRows (o : FVec Ideal S32x1x1 .f32) : FVec Ideal S_ .f32 :=
  Host.divf
    (Host.reduceAdd o (constant S_ .f32 0x00000000#32) reducesTo_S32x1x1_S_d0_1_2 h_S_)
    (constant S_ .f32 0x4AFF2000#32)

variable (m : (ℓ : Loc nD τ sig) → Buf (Elt Ideal) ℓ) (ρ : Dev nD → PrngReg)

/-- The result buffer after the host operations that follow the launch. -/
theorem tail_eq (c : Dev nD) :
    Pipeline.afterTail₀ cfgs (dats m) 0 (V0 m) [hostOps1] c main_v21 = meanOfRows (outArr m c) := by
  have hw : Pipeline.withArrays spec0 c (V0 m c) (fun w => (dats m 0 c).arrAt w cfg0.N) (Proc.devRef .tc main_v19)
      = outArr m c :=
    (Pipeline.withArrays_arr spec0 launch0.win.arr_inj c _ _ 3).trans (final m c)
  unfold Pipeline.afterTail₀
  show StableHlo.after hostOps1 _ (Proc.devRef .tc main_v21) = _
  after_results
  unfold meanOfRows
  rw [← hw]

/-- The run: the result at the mean of the per-row sums, the arguments unchanged. -/
theorem run : θ_run defs (onTc (τ := τ) (main (F := Ideal))) ⟨m, fun _ => 0, ρ⟩ fun r => ∀ c : Dev nD,
      r.2.mem ((c.tc : Thread nD τ).loc main_v21) = meanOfRows (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.KernelTerm.lean ====
/-
  The position-indexed target table as the kernel program's host operations compute it before the launch:
  nk (k, i) = a2 (i, k mod 64) · a3 (k mod 64, i), k < 2041 — the product of two row-gathers (of the transposed
  coefficient table and of the basis table) at the row numbers k mod 64.
-/
import proofs.«163653_j2740189135096_1_alg».proof.Proof.Gen.KernelIdeal

noncomputable section

namespace Cert.KernelIdeal.Hand

open Cert.KernelIdeal Cert.KernelIdeal.Gen Idealize.ShloMosaic

variable {F : FTy → Type} [FloatOps F]

/-- The divisor 64 as the remainder function sees it: replaced by 1 were it 0. -/
def kdiv : IVec S_ 32 :=
  select (cmpi .eq (id (constantI S_ 32 64#32)) (constantI S_ 32 0#32)) (constantI S_ 32 1#32) (id (constantI S_ 32 64#32))

/-- The truncated remainder of k by 64, k < 2041. -/
def krem : IVec S2041 32 :=
  Host.remsi (iotaInDim S2041 32 0) (broadcastInDim S2041 ![] bcast_S_S2041 kdiv)

/-- k mod 64 with the sign of the divisor: the truncated remainder, moved by the divisor where it is non-zero and its
    sign differs from the divisor's. -/
def kmod : IVec S2041 32 :=
  select
    (andi
      (cmpi .ne (cmpi .slt krem (broadcastInDim S2041 ![] bcast_S_S2041 (constantI S_ 32 0#32)))
        (broadcastInDim S2041 ![] bcast_S_S2041 (cmpi .slt kdiv (constantI S_ 32 0#32))))
      (cmpi .ne krem (broadcastInDim S2041 ![] bcast_S_S2041 (constantI S_ 32 0#32))))
    (addi krem (broadcastInDim S2041 ![] bcast_S_S2041 kdiv))
    krem

/-- The row-gather's start indices: a negative row number moved up by 64, a unit axis appended. -/
def rowIdx : IVec S2041x1 32 :=
  broadcastInDim S2041x1 ![0] bcast_S2041_S2041x1_0
    (select (cmpi .slt kmod (broadcastInDim S2041 ![] bcast_S_S2041 (constantI S_ 32 0#32)))
      (addi kmod (broadcastInDim S2041 ![] bcast_S_S2041 (constantI S_ 32 64#32)))
      kmod)

/-- The target table. -/
def nk (a2 : FVec F S128x64 .f32) (a3 : FVec F S64x128 .f32) : FVec F S2041x128 .f32 :=
  mulf
    (Host.gather gather_S64x128_S2041x1_S2041x128_1_0_n_n_0_1_1128
      (transpose S64x128 [1, 0] a2 transposes_S128x64_S64x128_1_0) rowIdx)
    (Host.gather gather_S64x128_S2041x1_S2041x128_1_0_n_n_0_1_1128 a3 rowIdx)

end Cert.KernelIdeal.Hand

end
-- ==== Proof.KernelEntry.lean ====
/-
  What the launch finds in the two arrays its second and third windows stage: the transposed matrix, and the target
  table, each as the host operations before the launch computed it from the arguments.
-/
import proofs.«163653_j2740189135096_1_alg».proof.Proof.Gen.KernelIdeal.Frame
import proofs.«163653_j2740189135096_1_alg».proof.Proof.KernelTerm
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ)

/-- The matrix as the launch finds it: the argument transposed. -/
theorem V_matT (c : Dev nD) :
    (V m c main_v0 : S128x128.Idx → Elt F .f32)
      = transpose S128x128 [1, 0] (m ((c : Thread nD τ).loc main_arg1)) transposes_S128x128_S128x128_1_0 := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append,
    List.nil_append]
  after_results

set_option maxHeartbeats 1000000 in
/-- The target table as the launch finds it: the host operations' term of the last two arguments. -/
theorem V_target (c : Dev nD) :
    (V m c main_v18 : S2041x128.Idx → Elt F .f32)
      = nk (m ((c : Thread nD τ).loc main_arg2)) (m ((c : Thread nD τ).loc main_arg3)) := by
  show StableHlo.after (List.flatten [hostOps0, hostOps0_1, hostOps0_2]) (fun b => m (c, b)) (Proc.devRef .tc main_v18) = _
  simp only [hostOps0, hostOps0_1, hostOps0_2, List.flatten_cons, List.flatten_nil, List.append_nil, List.cons_append,
    List.nil_append]
  after_results_simp
  rfl

end Cert.KernelIdeal.Hand

end
-- ==== Proof.RefTerm.lean ====
/-
  The reference's result as ONE composed term of its four argument arrays.

  Row w of the window table holds the eight rows w, w+1, …, w+7 of a batch row; the reference gathers them, sums the
  eight, divides by 8, applies the linear map (contracting the feature axis with the SECOND axis of the matrix),
  subtracts the position-indexed target, squares, sums everything and divides by the number of entries.
  The target is the product of two row-gathers (of the transposed coefficient table and of the basis table) at the
  row numbers k mod 64, k < 2041.
-/
import proofs.«163653_j2740189135096_1_alg».proof.Proof.Gen.ReferenceIdeal

noncomputable section

namespace Cert.ReferenceIdeal.Hand

open Cert.ReferenceIdeal Cert.ReferenceIdeal.Gen Idealize.ShloMosaic

variable {F : FTy → Type} [FloatOps F]

/-- Entry (w, r) is the row number w + r, as a 32-bit word. -/
def winRows : IVec S2041x8 32 :=
  addi
    (broadcastInDim S2041x8 ![0, 1] bcast_S2041x1_S2041x8_0_1
      (broadcastInDim S2041x1 ![0] bcast_S2041_S2041x1_0 (iotaInDim S2041 32 0)))
    (broadcastInDim S2041x8 ![0, 1] bcast_S1x8_S2041x8_0_1
      (broadcastInDim S1x8 ![1] bcast_S8_S1x8_1 (iotaInDim S8 32 0)))

/-- The gather's start indices: a negative row number would be moved up by 2048 (none is), then a unit axis is
    appended. -/
def winIdx : IVec S2041x8x1 32 :=
  broadcastInDim S2041x8x1 ![0, 1] bcast_S2041x8_S2041x8x1_0_1
    (select (cmpi .slt winRows (broadcastInDim S2041x8 ![] bcast_S_S2041x8 (constantI S_ 32 0#32)))
      (addi winRows (broadcastInDim S2041x8 ![] bcast_S_S2041x8 (constantI S_ 32 2048#32)))
      winRows)

/-- windows (b, w, r, i) = a0 (b, w + r, i). -/
def windows (a0 : FVec F S32x2048x128 .f32) : FVec F S32x2041x8x128 .f32 :=
  Host.gather gather_S32x2048x128_S2041x8x1_S32x2041x8x128_03_1_n_n_1_2_321128 a0 winIdx

/-- The mean of each window: the sum over its eight rows, divided by 8. -/
def winMean (a0 : FVec F S32x2048x128 .f32) : FVec F S32x2041x128 .f32 :=
  Host.divf
    (Host.reduceAdd (windows a0) (constant S_ .f32 0x00000000#32) reducesTo_S32x2041x8x128_S32x2041x128_d2 h_S_)
    (broadcastInDim S32x2041x128 ![] bcast_S_S32x2041x128 (constant S_ .f32 0x41000000#32))

/-- The linear map: agg (b, w, n) = Σ_i winMean (b, w, i) · a1 (n, i). -/
def agg (a0 : FVec F S32x2048x128 .f32) (a1 : FVec F S128x128 .f32) : FVec F S32x2041x128 .f32 :=
  Host.dotGeneral dot_S32x2041x128_S128x128_S32x2041x128_2_1_01_0_n_n none (winMean a0) a1

/-- The divisor 64 as the remainder function sees it: replaced by 1 were it 0. -/
def kdiv : IVec S_ 32 :=
  select (cmpi .eq (id (constantI S_ 32 64#32)) (constantI S_ 32 0#32)) (constantI S_ 32 1#32) (id (constantI S_ 32 64#32))

/-- The truncated remainder of k by 64, k < 2041. -/
def krem : IVec S2041 32 :=
  Host.remsi (iotaInDim S2041 32 0) (broadcastInDim S2041 ![] bcast_S_S2041 kdiv)

/-- k mod 64 with the sign of the divisor (jnp's remainder): the truncated remainder, moved by the divisor where it is
    non-zero and its sign differs from the divisor's. -/
def kmod : IVec S2041 32 :=
  select
    (andi
      (cmpi .ne (cmpi .slt krem (broadcastInDim S2041 ![] bcast_S_S2041 (constantI S_ 32 0#32)))
        (broadcastInDim S2041 ![] bcast_S_S2041 (cmpi .slt kdiv (constantI S_ 32 0#32))))
      (cmpi .ne krem (broadcastInDim S2041 ![] bcast_S_S2041 (constantI S_ 32 0#32))))
    (addi krem (broadcastInDim S2041 ![] bcast_S_S2041 kdiv))
    krem

/-- The row-gather's start indices: a negative row number moved up by 64, a unit axis appended. -/
def rowIdx : IVec S2041x1 32 :=
  broadcastInDim S2041x1 ![0] bcast_S2041_S2041x1_0
    (select (cmpi .slt kmod (broadcastInDim S2041 ![] bcast_S_S2041 (constantI S_ 32 0#32)))
      (addi kmod (broadcastInDim S2041 ![] bcast_S_S2041 (constantI S_ 32 64#32)))
      kmod)

/-- The position-indexed target: nk (k, i) = a2 (i, k mod 64) · a3 (k mod 64, i). -/
def nk (a2 : FVec F S128x64 .f32) (a3 : FVec F S64x128 .f32) : FVec F S2041x128 .f32 :=
  mulf
    (Host.gather gather_S64x128_S2041x1_S2041x128_1_0_n_n_0_1_1128
      (transpose S64x128 [1, 0] a2 transposes_S128x64_S64x128_1_0) rowIdx)
    (Host.gather gather_S64x128_S2041x1_S2041x128_1_0_n_n_0_1_1128 a3 rowIdx)

/-- The squared deviations, for ANY target table. -/
def sq (a0 : FVec F S32x2048x128 .f32) (a1 : FVec F S128x128 .f32) (t : FVec F S2041x128 .f32) :
    FVec F S32x2041x128 .f32 :=
  mulf
    (subf (agg a0 a1)
      (broadcastInDim S32x2041x128 ![0, 1, 2] bcast_S1x2041x128_S32x2041x128_0_1_2
        (broadcastInDim S1x2041x128 ![1, 2] bcast_S2041x128_S1x2041x128_1_2 t)))
    (subf (agg a0 a1)
      (broadcastInDim S32x2041x128 ![0, 1, 2] bcast_S1x2041x128_S32x2041x128_0_1_2
        (broadcastInDim S1x2041x128 ![1, 2] bcast_S2041x128_S1x2041x128_1_2 t)))

/-- The total of a table of squared deviations over the number of its entries, 32 · 2041 · 128 = 8359936. -/
def meanOf (s : FVec F S32x2041x128 .f32) : FVec F S_ .f32 :=
  Host.divf
    (Host.reduceAdd s (constant S_ .f32 0x00000000#32) reducesTo_S32x2041x128_S_d0_1_2 h_S_)
    (constant S_ .f32 0x4AFF2000#32)

/-- The reference's result. -/
def refOut (a0 : FVec F S32x2048x128 .f32) (a1 : FVec F S128x128 .f32) (a2 : FVec F S128x64 .f32)
    (a3 : FVec F S64x128 .f32) : FVec F S_ .f32 :=
  meanOf (sq a0 a1 (nk a2 a3))

end Cert.ReferenceIdeal.Hand

end
-- ==== Proof.RefWindows.lean ====
/-
  The reference's window gather read at an index: entry (b, w, r, κ) of the gathered table is the argument's entry
  (b, w + r, κ).

  The table of start indices holds, at (w, r), the word w + r: a column of window starts 0 … 2040 plus a row of offsets
  0 … 7, neither sum reaching 2³¹, so the "negative index" correction never applies. The gather then reads, on the
  collapsed row axis, that word as a signed integer clamped into [0, 2047] — itself, since w + r ≤ 2047 — and on the
  batch and feature axes the result's own coordinates.
-/
import proofs.«163653_j2740189135096_1_alg».proof.Proof.RefTerm
import proofs.«163653_j2740189135096_1_alg».proof.Proof.Spec
import Idealize.ShloMosaic.Lib.ValueIdx
import Idealize.ShloMosaic.Lib.StableHlo.Predicate

noncomputable section

namespace Cert.ReferenceIdeal.Hand

open Cert.ReferenceIdeal Cert.ReferenceIdeal.Gen Idealize.ShloMosaic Idealize.ShloMosaic.ValueIdx

variable {F : FTy → Type} [FloatOps F]

/-- The word w + r has the value w + r: at most 2047, far below 2³². -/
theorem rowWord_toNat (w : Fin 2041) (r : Fin 8) : (BitVec.ofNat 32 (w.val + r.val)).toNat = w.val + r.val := by
  have hw := w.isLt
  have hr := r.isLt
  rw [BitVec.toNat_ofNat]
  exact Nat.mod_eq_of_lt (by omega)

/-- The start index of window w's row r is the word w + r. -/
theorem winIdx_apply (w : Fin 2041) (r : Fin 8) :
    winIdx (ix3 w r (0 : Fin 1)) = BitVec.ofNat 32 (w.val + r.val) := by
  -- every layout operation reads through at the index: what is left is the select on the sign of w + r
  have h : winIdx (ix3 w r (0 : Fin 1))
      = Scalar.select (IntOp.cmpi .slt (BitVec.ofNat 32 w.val + BitVec.ofNat 32 r.val) 0#32)
          (IntOp.addi (BitVec.ofNat 32 w.val + BitVec.ofNat 32 r.val) 2048#32)
          (BitVec.ofNat 32 w.val + BitVec.ofNat 32 r.val) := rfl
  rw [h, ← BitVec.ofNat_add]
  -- w + r < 2³¹ is not below 0 as a signed word
  have hc : IntOp.cmpi .slt (BitVec.ofNat 32 (w.val + r.val)) 0#32 = 0#1 := by
    apply eq_zero_of_ne_one
    intro h1
    have hw := w.isLt
    have hr := r.isLt
    have hlt := (StableHlo.Predicate.slt_iff_toNat (a := BitVec.ofNat 32 (w.val + r.val)) (b := 0#32)
      (by rw [rowWord_toNat]; omega) (by decide)).1 h1
    exact absurd hlt (Nat.not_lt_zero _)
  rw [hc, select_zero]

/-- The window gather's dimension numbers: result axes 0 and 3 are the operand's batch and feature axes, the operand's
    row axis is collapsed and is the one the start index names. -/
private abbrev gd : GatherDims S32x2048x128 S2041x8x1 S32x2041x8x128 :=
  gather_S32x2048x128_S2041x8x1_S32x2041x8x128_03_1_n_n_1_2_321128

/-- The gathered table at (b, w, r, κ) is the argument at (b, w + r, κ). -/
theorem windows_apply (a0 : FVec F S32x2048x128 .f32) (b : Fin 32) (w : Fin 2041) (r : Fin 8) (κ : Fin 128) :
    windows a0 (ix4 b w r κ) = a0 (ix3 b (Cert.Spec.rowOf w r) κ) := by
  unfold windows Host.gather
  congr 1
  funext a
  refine Fin.ext ?_
  have hw := w.isLt
  have hr := r.isLt
  match a with
  | ⟨0, _⟩ =>
    -- the batch axis: no start, no batching, the offset is the result's coordinate 0
    show gd.start (ix4 b w r κ) winIdx 0 + gd.batchCoord (ix4 b w r κ) 0 + gd.offCoord (ix4 b w r κ) 0 = b.val
    rw [GatherDims.batchCoord_eq_zero _ _ _ List.not_mem_nil]
    have hs : gd.start (ix4 b w r κ) winIdx 0 = 0 := by
      unfold GatherDims.start
      rw [dif_neg (by decide)]
    have ho : gd.offCoord (ix4 b w r κ) 0 = b.val := by
      unfold GatherDims.offCoord
      rw [dif_pos (by decide)]
      rfl
    rw [hs, ho]; omega
  | ⟨1, _⟩ =>
    -- the row axis: collapsed, so only the start, read at (w, r, 0), signed, clamped into [0, 2047]
    show gd.start (ix4 b w r κ) winIdx 1 + gd.batchCoord (ix4 b w r κ) 1 + gd.offCoord (ix4 b w r κ) 1 = w.val + r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix4 b w r κ) ⟨List.idxOf (1 : Fin 3) gd.startIndexMap,
        List.idxOf_lt_length_iff.2 (List.mem_singleton.mpr rfl)⟩ = ix3 w r (0 : Fin 1) := by
      funext c; refine Fin.ext ?_
      match c with
      | ⟨0, _⟩ => rfl
      | ⟨1, _⟩ => rfl
      | ⟨2, _⟩ => rfl
    rw [hsi, winIdx_apply, StableHlo.Predicate.toInt_ofNat_small _ (by omega)]
    show min (w.val + r.val) (2048 - 1) = w.val + r.val
    omega
  | ⟨2, _⟩ =>
    -- the feature axis: no start, no batching, the offset is the result's coordinate 3
    show gd.start (ix4 b w r κ) winIdx 2 + gd.batchCoord (ix4 b w r κ) 2 + gd.offCoord (ix4 b w r κ) 2 = κ.val
    rw [GatherDims.batchCoord_eq_zero _ _ _ List.not_mem_nil]
    have hs : gd.start (ix4 b w r κ) winIdx 2 = 0 := by
      unfold GatherDims.start
      rw [dif_neg (by decide)]
    have ho : gd.offCoord (ix4 b w r κ) 2 = κ.val := by
      unfold GatherDims.offCoord
      rw [dif_pos (by decide)]
      rfl
    rw [hs, ho]; omega

end Cert.ReferenceIdeal.Hand

end
-- ==== Proof.RefRead.lean ====
/-
  The reference's table of squared deviations read at an index: entry (b, w, n) is the squared deviation of batch row
  b at window w and output feature n, for any target table.
-/
import proofs.«163653_j2740189135096_1_alg».proof.Proof.RefWindows
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The window means -/

/-- The divisor's word denotes the real 8. -/
theorem ofBits_eight : Ideal.ofBits .f32 0x41000000#32 = ((8 : ℝ) : EReal) := by
  simp [Ideal.ofBits, Ideal.ieee, -EReal.coe_mul]; norm_num

/-- The window table's shape loses its axis 2 to the shape of the means. -/
theorem reduces_win : S32x2041x8x128.Reduces [2] S32x2041x128 := by decide

/-- The index (b, w, κ) with the coordinate r inserted on axis 2 is (b, w, r, κ). -/
theorem lift_win (b : Fin 32) (w : Fin 2041) (κ : Fin 128) (r : Fin 8) :
    reduces_win.lift (ix3 b w κ) r = ix4 b w r κ := by
  funext c
  match c with
  | ⟨0, _⟩ => exact Fin.ext rfl
  | ⟨1, _⟩ => exact Fin.ext rfl
  | ⟨2, _⟩ => exact Fin.ext rfl
  | ⟨3, _⟩ => exact Fin.ext rfl

/-- Entry (b, w, κ) of the window means: the sum of the eight rows w, …, w + 7 of batch row b at feature κ, times
    1/8. -/
theorem winMean_apply (a0 : FVec Ideal S32x2048x128 .f32) (b : Fin 32) (w : Fin 2041) (κ : Fin 128) :
    winMean (F := Ideal) a0 (ix3 b w κ) = Cert.Spec.wmean (fun p κ => a0 (ix3 b p κ)) w κ := by
  show Ideal.div (Ideal.hostReduceAdd reducesTo_S32x2041x8x128_S32x2041x128_d2 (windows a0)
      (Ideal.ofBits .f32 0x00000000#32) (ix3 b w κ)) (Ideal.ofBits .f32 0x41000000#32) = _
  rw [Ideal.hostReduceAdd_single _ reduces_win, Ideal.ofBits_zero_f32, zero_add, ofBits_eight,
    Ideal.div_coe (by norm_num : (8 : ℝ) ≠ 0)]
  unfold Cert.Spec.wmean
  congr 1
  show ∑ r : Fin 8, windows a0 (reduces_win.lift (ix3 b w κ) r) = _
  refine Finset.sum_congr rfl fun r _ => ?_
  rw [lift_win, windows_apply]

/-! ## The linear map -/

/-- The reference's product contracts one axis. -/
theorem dot_contr_rank : dot_S32x2041x128_S128x128_S32x2041x128_2_1_01_0_n_n.contr.rank = 1 := rfl

/-- The contracted axis has the feature extent 128. -/
theorem dot_contr_size :
    dot_S32x2041x128_S128x128_S32x2041x128_2_1_01_0_n_n.contr.size ⟨0, by rw [dot_contr_rank]; exact Nat.one_pos⟩ = 128 := rfl

/-- The left operand's batch coordinate is the output's. -/
theorem dot_lhs_axis0 (j : S32x2041x128.Idx) (k : dot_S32x2041x128_S128x128_S32x2041x128_2_1_01_0_n_n.contr.Idx) :
    (dot_S32x2041x128_S128x128_S32x2041x128_2_1_01_0_n_n.lhsIdx j k 0).val = (j 0).val := rfl

/-- The left operand's window coordinate is the output's. -/
theorem dot_lhs_axis1 (j : S32x2041x128.Idx) (k : dot_S32x2041x128_S128x128_S32x2041x128_2_1_01_0_n_n.contr.Idx) :
    (dot_S32x2041x128_S128x128_S32x2041x128_2_1_01_0_n_n.lhsIdx j k 1).val = (j 1).val := rfl

/-- The left operand's feature coordinate is the contracted coordinate. -/
theorem dot_lhs_axis2 (j : S32x2041x128.Idx) (k : dot_S32x2041x128_S128x128_S32x2041x128_2_1_01_0_n_n.contr.Idx) :
    (dot_S32x2041x128_S128x128_S32x2041x128_2_1_01_0_n_n.lhsIdx j k 2).val
      = (k ⟨0, by rw [dot_contr_rank]; exact Nat.one_pos⟩).val :=
  dot_S32x2041x128_S128x128_S32x2041x128_2_1_01_0_n_n.lhsIdx_val_of_single rfl j k

/-- The right operand's row coordinate is the output's feature coordinate. -/
theorem dot_rhs_axis0 (j : S32x2041x128.Idx) (k : dot_S32x2041x128_S128x128_S32x2041x128_2_1_01_0_n_n.contr.Idx) :
    (dot_S32x2041x128_S128x128_S32x2041x128_2_1_01_0_n_n.rhsIdx j k 0).val = (j 2).val := rfl

/-- The right operand's column coordinate is the contracted coordinate. -/
theorem dot_rhs_axis1 (j : S32x2041x128.Idx) (k : dot_S32x2041x128_S128x128_S32x2041x128_2_1_01_0_n_n.contr.Idx) :
    (dot_S32x2041x128_S128x128_S32x2041x128_2_1_01_0_n_n.rhsIdx j k 1).val
      = (k ⟨0, by rw [dot_contr_rank]; exact Nat.one_pos⟩).val :=
  dot_S32x2041x128_S128x128_S32x2041x128_2_1_01_0_n_n.rhsIdx_val_of_single rfl j k

/-- The sum over the contraction index, re-indexed by the contracted feature κ: the operands are read at (b, w, κ) and
    (n, κ). -/
theorem sum_contr (l : FVec Ideal S32x2041x128 .f32) (r : FVec Ideal S128x128 .f32) (b : Fin 32) (w : Fin 2041)
    (n : Fin 128) :
    ∑ k : dot_S32x2041x128_S128x128_S32x2041x128_2_1_01_0_n_n.contr.Idx,
        l (dot_S32x2041x128_S128x128_S32x2041x128_2_1_01_0_n_n.lhsIdx (ix3 b w n) k)
          * r (dot_S32x2041x128_S128x128_S32x2041x128_2_1_01_0_n_n.rhsIdx (ix3 b w n) k)
      = ∑ κ : Fin 128, l (ix3 b w κ) * r (ix2 n κ) := by
  refine (Equiv.sum_comp (contrEquiv1 dot_S32x2041x128_S128x128_S32x2041x128_2_1_01_0_n_n 128 dot_contr_rank
    dot_contr_size).symm _).symm.trans ?_
  refine Finset.sum_congr rfl fun κ _ => ?_
  have hl : dot_S32x2041x128_S128x128_S32x2041x128_2_1_01_0_n_n.lhsIdx (ix3 b w n)
      ((contrEquiv1 dot_S32x2041x128_S128x128_S32x2041x128_2_1_01_0_n_n 128 dot_contr_rank dot_contr_size).symm κ)
      = ix3 b w κ := by
    funext a
    match a with
    | ⟨0, _⟩ => exact Fin.ext (dot_lhs_axis0 _ _)
    | ⟨1, _⟩ => exact Fin.ext (dot_lhs_axis1 _ _)
    | ⟨2, _⟩ => exact Fin.ext ((dot_lhs_axis2 _ _).trans (contrEquiv1_symm_val _ 128 _ _ κ))
  have hr : dot_S32x2041x128_S128x128_S32x2041x128_2_1_01_0_n_n.rhsIdx (ix3 b w n)
      ((contrEquiv1 dot_S32x2041x128_S128x128_S32x2041x128_2_1_01_0_n_n 128 dot_contr_rank dot_contr_size).symm κ)
      = ix2 n κ := by
    funext a
    match a with
    | ⟨0, _⟩ => exact Fin.ext (dot_rhs_axis0 _ _)
    | ⟨1, _⟩ => exact Fin.ext ((dot_rhs_axis1 _ _).trans (contrEquiv1_symm_val _ 128 _ _ κ))
  rw [hl, hr]

/-- Entry (b, w, n) of the mapped window means: the sum over the features κ of the mean at (b, w, κ) times the matrix
    entry (n, κ). -/
theorem agg_apply (a0 : FVec Ideal S32x2048x128 .f32) (a1 : FVec Ideal S128x128 .f32) (b : Fin 32) (w : Fin 2041)
    (n : Fin 128) :
    agg (F := Ideal) a0 a1 (ix3 b w n) = ∑ κ : Fin 128, winMean (F := Ideal) a0 (ix3 b w κ) * a1 (ix2 n κ) :=
  (Ideal.dotGeneral_apply _ _ _ _ _ _).trans (sum_contr _ _ b w n)

/-! ## The target, repeated over the batch axis -/

/-- The target table, given a leading unit axis and then repeated 32 times along it, read at (b, w, n) is the table at
    (w, n). -/
theorem target_apply (t : FVec Ideal S2041x128 .f32) (b : Fin 32) (w : Fin 2041) (n : Fin 128) :
    broadcastInDim S32x2041x128 ![0, 1, 2] bcast_S1x2041x128_S32x2041x128_0_1_2
        (broadcastInDim S1x2041x128 ![1, 2] bcast_S2041x128_S1x2041x128_1_2 t) (ix3 b w n)
      = t (ix2 w n) := by
  unfold broadcastInDim
  congr 1
  funext a
  match a with
  | ⟨0, _⟩ => exact Fin.ext rfl
  | ⟨1, _⟩ => exact Fin.ext rfl

/-! ## The squared deviations -/

/-- Entry (b, w, n) of the reference's squared deviations. -/
theorem sq_apply (a0 : FVec Ideal S32x2048x128 .f32) (a1 : FVec Ideal S128x128 .f32) (t : FVec Ideal S2041x128 .f32)
    (b : Fin 32) (w : Fin 2041) (n : Fin 128) :
    sq (F := Ideal) a0 a1 t (ix3 b w n)
      = Cert.Spec.sqdev (fun p κ => a0 (ix3 b p κ)) (fun n' κ => a1 (ix2 n' κ)) (fun w' n' => t (ix2 w' n')) w n := by
  unfold sq
  rw [mulf_apply, subf_apply, agg_apply, target_apply]
  unfold Cert.Spec.sqdev Cert.Spec.dev
  simp only [winMean_apply]

end Cert.ReferenceIdeal.Hand

end
-- ==== Proof.Bridge.lean ====
/-
  The two programs compute one number.

  The kernel program sums, over the 32 batch rows, each row's sum of squared deviations (over all 2041 windows and 128
  output features), and divides by 8359936; the reference sums the squared deviations over all (row, window, feature)
  triples at once and divides by the same number. The per-entry deviations agree: the kernel multiplies the window mean
  with entry (κ, n) of the TRANSPOSED matrix, the reference with entry (n, κ) of the matrix itself, and both programs
  compute the target table by the same host operations of the last two arguments. A sum over a box of triples is the
  iterated sum over its coordinates, so the two totals are the same extended real.
-/
import proofs.«163653_j2740189135096_1_alg».proof.Proof.KernelTail
import proofs.«163653_j2740189135096_1_alg».proof.Proof.KernelEntry
import proofs.«163653_j2740189135096_1_alg».proof.Proof.RefRead
import Idealize.ShloMosaic.Lib.ValueLayout

noncomputable section

open Idealize.ShloMosaic Idealize.ShloMosaic.TcCoe Idealize.SL.Sem Idealize.ShloMosaic.ValueIdx
open scoped BigOperators

namespace Cert.Bridge

/-- Both programs build the target table by the same operations. -/
theorem nk_eq (a2 : FVec Ideal Cert.KernelIdeal.S128x64 .f32) (a3 : FVec Ideal Cert.KernelIdeal.S64x128 .f32) :
    (Cert.KernelIdeal.Hand.nk a2 a3 : Cert.KernelIdeal.S2041x128.Idx → EReal) = Cert.ReferenceIdeal.Hand.nk a2 a3 := by
  unfold Cert.KernelIdeal.Hand.nk Cert.ReferenceIdeal.Hand.nk
  rfl

variable (m : (ℓ : Loc Cert.KernelIdeal.nD Cert.KernelIdeal.τ Cert.KernelIdeal.sig) → Buf (Elt Ideal) ℓ)

/-- Batch row b's sum, as the kernel program's launch computes it, over the ARGUMENTS. -/
theorem rowSum_eq (c : Dev Cert.KernelIdeal.nD) (b : Fin 32) :
    Cert.KernelIdeal.Hand.rowSum m c b
      = Cert.Spec.rowTotal
          (fun p κ => (m ((c : Thread Cert.KernelIdeal.nD Cert.KernelIdeal.τ).loc Cert.KernelIdeal.main_arg0)
            : Cert.KernelIdeal.S32x2048x128.Idx → EReal) (ix3 b p κ))
          (fun n κ => (m ((c : Thread Cert.KernelIdeal.nD Cert.KernelIdeal.τ).loc Cert.KernelIdeal.main_arg1)
            : Cert.KernelIdeal.S128x128.Idx → EReal) (ix2 n κ))
          (fun w n => Cert.ReferenceIdeal.Hand.nk (F := Ideal)
            (m ((c : Thread Cert.KernelIdeal.nD Cert.KernelIdeal.τ).loc Cert.KernelIdeal.main_arg2))
            (m ((c : Thread Cert.KernelIdeal.nD Cert.KernelIdeal.τ).loc Cert.KernelIdeal.main_arg3)) (ix2 w n)) := by
  unfold Cert.KernelIdeal.Hand.rowSum
  have hx : Cert.KernelIdeal.Hand.xarr m c
      = m ((c : Thread Cert.KernelIdeal.nD Cert.KernelIdeal.τ).loc Cert.KernelIdeal.main_arg0) :=
    Cert.KernelIdeal.Gen.V_main_arg0 m c
  have hm : ∀ (n κ : Fin 128), Cert.KernelIdeal.Hand.marr m c (ix2 κ n)
      = (m ((c : Thread Cert.KernelIdeal.nD Cert.KernelIdeal.τ).loc Cert.KernelIdeal.main_arg1)
          : Cert.KernelIdeal.S128x128.Idx → EReal) (ix2 n κ) := by
    intro n κ
    show (Cert.KernelIdeal.Gen.V m c Cert.KernelIdeal.main_v0 : Cert.KernelIdeal.S128x128.Idx → EReal) (ix2 κ n) = _
    rw [Cert.KernelIdeal.Hand.V_matT m c]
    exact transpose_ix2_apply _ _ κ n
  have ht : Cert.KernelIdeal.Hand.tarr m c
      = Cert.ReferenceIdeal.Hand.nk (F := Ideal)
          (m ((c : Thread Cert.KernelIdeal.nD Cert.KernelIdeal.τ).loc Cert.KernelIdeal.main_arg2))
          (m ((c : Thread Cert.KernelIdeal.nD Cert.KernelIdeal.τ).loc Cert.KernelIdeal.main_arg3)) :=
    (Cert.KernelIdeal.Hand.V_target m c).trans (nk_eq _ _)
  rw [hx, ht]
  simp only [hm]

/-- The kernel program's result is the reference's result term of the same arguments. -/
theorem result_eq (c : Dev Cert.KernelIdeal.nD) :
    Cert.KernelIdeal.Hand.meanOfRows (Cert.KernelIdeal.Hand.outArr m c)
      = Cert.ReferenceIdeal.Hand.refOut
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  unfold Cert.KernelIdeal.Hand.meanOfRows Cert.ReferenceIdeal.Hand.refOut Cert.ReferenceIdeal.Hand.meanOf
  funext i
  show Ideal.div (Ideal.hostReduceAdd _ _ _ i) _ = Ideal.div (Ideal.hostReduceAdd _ _ _ i) _
  rw [Ideal.hostReduceAdd_total _ (fun b => b.elim0), Ideal.hostReduceAdd_total _ (fun b => b.elim0)]
  congr 2
  rw [Cert.Spec.sum_idx3, Cert.Spec.sum_idx3]
  refine Finset.sum_congr rfl fun b _ => ?_
  rw [Fin.sum_univ_one, Fin.sum_univ_one]
  show Cert.KernelIdeal.Hand.rowSum m c ⟨b.val, _⟩ = _
  rw [show (⟨b.val, b.isLt⟩ : Fin 32) = b from rfl, rowSum_eq m c b]
  unfold Cert.Spec.rowTotal
  refine Finset.sum_congr rfl fun w _ => Finset.sum_congr rfl fun n _ => ?_
  exact (Cert.ReferenceIdeal.Hand.sq_apply _ _ _ b w n).symm

end Cert.Bridge

end
-- ==== Proof.RefRun.lean ====
/-
  The reference program's run: its @main is a straight line of host operations, so every weakly fair execution
  terminates with the result buffer at the operations' composed term of the argument arrays and the arguments unchanged.
-/
import proofs.«163653_j2740189135096_1_alg».proof.Proof.RefTerm
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The line

@main's operations in order: twenty-four of its own (the window row numbers, the gather of the windows, their mean, the
linear map, the position numbers and the divisor), then the twenty-one of the remainder function where its call stands,
written over that call's buffers (the divisor's copy, its guard against zero — the select is the inner function's one
operation —, the truncated remainder, and its correction to the sign of the divisor), then @main's remaining
twenty-eight (the two row-gathers at the remainders, their product, the squared deviation and its mean). -/

/-- @main's seventy-three operations, in order. -/
abbrev ops : List (HloOp τ sig (Elt F)) :=
  [
    nullary main_v0 (iotaInDim S2041 32 0),
    unary main_v0 main_v1 (broadcastInDim S2041x1 ![0] bcast_S2041_S2041x1_0 : (⟨S2041, .i32⟩ : BufTy).Contents (Elt F) → (⟨S2041x1, .i32⟩ : BufTy).Contents (Elt F)),
    nullary main_v2 (iotaInDim S8 32 0),
    unary main_v2 main_v3 (broadcastInDim S1x8 ![1] bcast_S8_S1x8_1 : (⟨S8, .i32⟩ : BufTy).Contents (Elt F) → (⟨S1x8, .i32⟩ : BufTy).Contents (Elt F)),
    unary main_v1 main_v4 (broadcastInDim S2041x8 ![0, 1] bcast_S2041x1_S2041x8_0_1 : (⟨S2041x1, .i32⟩ : BufTy).Contents (Elt F) → (⟨S2041x8, .i32⟩ : BufTy).Contents (Elt F)),
    unary main_v3 main_v5 (broadcastInDim S2041x8 ![0, 1] bcast_S1x8_S2041x8_0_1 : (⟨S1x8, .i32⟩ : BufTy).Contents (Elt F) → (⟨S2041x8, .i32⟩ : BufTy).Contents (Elt F)),
    binary main_v4 main_v5 main_v6 (addi : (⟨S2041x8, .i32⟩ : BufTy).Contents (Elt F) → (⟨S2041x8, .i32⟩ : BufTy).Contents (Elt F) → (⟨S2041x8, .i32⟩ : BufTy).Contents (Elt F)),
    nullary main_c (constantI S_ 32 0#32),
    unary main_c main_v7 (broadcastInDim S2041x8 ![] bcast_S_S2041x8 : (⟨S_, .i32⟩ : BufTy).Contents (Elt F) → (⟨S2041x8, .i32⟩ : BufTy).Contents (Elt F)),
    binary main_v6 main_v7 main_v8 (cmpi .slt : (⟨S2041x8, .i32⟩ : BufTy).Contents (Elt F) → (⟨S2041x8, .i32⟩ : BufTy).Contents (Elt F) → (⟨S2041x8, .i1⟩ : BufTy).Contents (Elt F)),
    nullary main_c_0 (constantI S_ 32 2048#32),
    unary main_c_0 main_v9 (broadcastInDim S2041x8 ![] bcast_S_S2041x8 : (⟨S_, .i32⟩ : BufTy).Contents (Elt F) → (⟨S2041x8, .i32⟩ : BufTy).Contents (Elt F)),
    binary main_v6 main_v9 main_v10 (addi : (⟨S2041x8, .i32⟩ : BufTy).Contents (Elt F) → (⟨S2041x8, .i32⟩ : BufTy).Contents (Elt F) → (⟨S2041x8, .i32⟩ : BufTy).Contents (Elt F)),
    ternary main_v8 main_v10 main_v6 main_v11 (select : (⟨S2041x8, .i1⟩ : BufTy).Contents (Elt F) → (⟨S2041x8, .i32⟩ : BufTy).Contents (Elt F) → (⟨S2041x8, .i32⟩ : BufTy).Contents (Elt F) → (⟨S2041x8, .i32⟩ : BufTy).Contents (Elt F)),
    unary main_v11 main_v12 (broadcastInDim S2041x8x1 ![0, 1] bcast_S2041x8_S2041x8x1_0_1 : (⟨S2041x8, .i32⟩ : BufTy).Contents (Elt F) → (⟨S2041x8x1, .i32⟩ : BufTy).Contents (Elt F)),
    binary main_arg0 main_v12 main_v13 ((fun x i => Host.gather gather_S32x2048x128_S2041x8x1_S32x2041x8x128_03_1_n_n_1_2_321128 x i) : (⟨S32x2048x128, .f32⟩ : BufTy).Contents (Elt F) → (⟨S2041x8x1, .i32⟩ : BufTy).Contents (Elt F) → (⟨S32x2041x8x128, .f32⟩ : BufTy).Contents (Elt F)),
    nullary main_cst (constant S_ .f32 0x00000000#32),
    binary main_v13 main_cst main_v14 ((fun x v => Host.reduceAdd x v reducesTo_S32x2041x8x128_S32x2041x128_d2 h_S_) : (⟨S32x2041x8x128, .f32⟩ : BufTy).Contents (Elt F) → (⟨S_, .f32⟩ : BufTy).Contents (Elt F) → (⟨S32x2041x128, .f32⟩ : BufTy).Contents (Elt F)),
    nullary main_cst_1 (constant S_ .f32 0x41000000#32),
    unary main_cst_1 main_v15 (broadcastInDim S32x2041x128 ![] bcast_S_S32x2041x128 : (⟨S_, .f32⟩ : BufTy).Contents (Elt F) → (⟨S32x2041x128, .f32⟩ : BufTy).Contents (Elt F)),
    binary main_v14 main_v15 main_v16 (Host.divf : (⟨S32x2041x128, .f32⟩ : BufTy).Contents (Elt F) → (⟨S32x2041x128, .f32⟩ : BufTy).Contents (Elt F) → (⟨S32x2041x128, .f32⟩ : BufTy).Contents (Elt F)),
    binary main_v16 main_arg1 main_v17 ((fun l r => Host.dotGeneral dot_S32x2041x128_S128x128_S32x2041x128_2_1_01_0_n_n none l r) : (⟨S32x2041x128, .f32⟩ : BufTy).Contents (Elt F) → (⟨S128x128, .f32⟩ : BufTy).Contents (Elt F) → (⟨S32x2041x128, .f32⟩ : BufTy).Contents (Elt F)),
    nullary main_v18 (iotaInDim S2041 32 0),
    nullary main_c_2 (constantI S_ 32 64#32),
    TRef.unary (.of main_c_2 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2041 ![] bcast_S_S2041),
    TRef.binary (.of main_v18 : TRef sig ⟨S2041, .i32⟩) main_call0.v3 main_call0.v4 Host.remsi,
    TRef.nullary main_call0.c_1 (constantI S_ 32 0#32),
    TRef.unary main_call0.c_1 main_call0.v5 (broadcastInDim S2041 ![] bcast_S_S2041),
    TRef.binary main_call0.v4 main_call0.v5 main_call0.v6 (cmpi .ne),
    TRef.nullary main_call0.c_2 (constantI S_ 32 0#32),
    TRef.unary main_call0.c_2 main_call0.v7 (broadcastInDim S2041 ![] bcast_S_S2041),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2041 ![] bcast_S_S2041),
    TRef.binary main_call0.v8 main_call0.v10 main_call0.v11 (cmpi .ne),
    TRef.binary main_call0.v11 main_call0.v6 main_call0.v12 andi,
    TRef.unary main_call0.call0.v0 main_call0.v13 (broadcastInDim S2041 ![] bcast_S_S2041),
    TRef.binary main_call0.v4 main_call0.v13 main_call0.v14 addi,
    TRef.ternary main_call0.v12 main_call0.v14 main_call0.v4 main_call0.v15 select,
    unary main_arg2 main_v20 ((transpose S64x128 [1, 0] · transposes_S128x64_S64x128_1_0) : (⟨S128x64, .f32⟩ : BufTy).Contents (Elt F) → (⟨S64x128, .f32⟩ : BufTy).Contents (Elt F)),
    nullary main_c_3 (constantI S_ 32 0#32),
    unary main_c_3 main_v21 (broadcastInDim S2041 ![] bcast_S_S2041 : (⟨S_, .i32⟩ : BufTy).Contents (Elt F) → (⟨S2041, .i32⟩ : BufTy).Contents (Elt F)),
    binary main_v19 main_v21 main_v22 (cmpi .slt : (⟨S2041, .i32⟩ : BufTy).Contents (Elt F) → (⟨S2041, .i32⟩ : BufTy).Contents (Elt F) → (⟨S2041, .i1⟩ : BufTy).Contents (Elt F)),
    nullary main_c_4 (constantI S_ 32 64#32),
    unary main_c_4 main_v23 (broadcastInDim S2041 ![] bcast_S_S2041 : (⟨S_, .i32⟩ : BufTy).Contents (Elt F) → (⟨S2041, .i32⟩ : BufTy).Contents (Elt F)),
    binary main_v19 main_v23 main_v24 (addi : (⟨S2041, .i32⟩ : BufTy).Contents (Elt F) → (⟨S2041, .i32⟩ : BufTy).Contents (Elt F) → (⟨S2041, .i32⟩ : BufTy).Contents (Elt F)),
    ternary main_v22 main_v24 main_v19 main_v25 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    unary main_v25 main_v26 (broadcastInDim S2041x1 ![0] bcast_S2041_S2041x1_0 : (⟨S2041, .i32⟩ : BufTy).Contents (Elt F) → (⟨S2041x1, .i32⟩ : BufTy).Contents (Elt F)),
    binary main_v20 main_v26 main_v27 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    nullary main_c_5 (constantI S_ 32 0#32),
    unary main_c_5 main_v28 (broadcastInDim S2041 ![] bcast_S_S2041 : (⟨S_, .i32⟩ : BufTy).Contents (Elt F) → (⟨S2041, .i32⟩ : BufTy).Contents (Elt F)),
    binary main_v19 main_v28 main_v29 (cmpi .slt : (⟨S2041, .i32⟩ : BufTy).Contents (Elt F) → (⟨S2041, .i32⟩ : BufTy).Contents (Elt F) → (⟨S2041, .i1⟩ : BufTy).Contents (Elt F)),
    nullary main_c_6 (constantI S_ 32 64#32),
    unary main_c_6 main_v30 (broadcastInDim S2041 ![] bcast_S_S2041 : (⟨S_, .i32⟩ : BufTy).Contents (Elt F) → (⟨S2041, .i32⟩ : BufTy).Contents (Elt F)),
    binary main_v19 main_v30 main_v31 (addi : (⟨S2041, .i32⟩ : BufTy).Contents (Elt F) → (⟨S2041, .i32⟩ : BufTy).Contents (Elt F) → (⟨S2041, .i32⟩ : BufTy).Contents (Elt F)),
    ternary main_v29 main_v31 main_v19 main_v32 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    unary main_v32 main_v33 (broadcastInDim S2041x1 ![0] bcast_S2041_S2041x1_0 : (⟨S2041, .i32⟩ : BufTy).Contents (Elt F) → (⟨S2041x1, .i32⟩ : BufTy).Contents (Elt F)),
    binary main_arg3 main_v33 main_v34 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    binary main_v27 main_v34 main_v35 (mulf : (⟨S2041x128, .f32⟩ : BufTy).Contents (Elt F) → (⟨S2041x128, .f32⟩ : BufTy).Contents (Elt F) → (⟨S2041x128, .f32⟩ : BufTy).Contents (Elt F)),
    unary main_v35 main_v36 (broadcastInDim S1x2041x128 ![1, 2] bcast_S2041x128_S1x2041x128_1_2 : (⟨S2041x128, .f32⟩ : BufTy).Contents (Elt F) → (⟨S1x2041x128, .f32⟩ : BufTy).Contents (Elt F)),
    unary main_v36 main_v37 (broadcastInDim S32x2041x128 ![0, 1, 2] bcast_S1x2041x128_S32x2041x128_0_1_2 : (⟨S1x2041x128, .f32⟩ : BufTy).Contents (Elt F) → (⟨S32x2041x128, .f32⟩ : BufTy).Contents (Elt F)),
    binary main_v17 main_v37 main_v38 (subf : (⟨S32x2041x128, .f32⟩ : BufTy).Contents (Elt F) → (⟨S32x2041x128, .f32⟩ : BufTy).Contents (Elt F) → (⟨S32x2041x128, .f32⟩ : BufTy).Contents (Elt F)),
    binary main_v38 main_v38 main_v39 (mulf : (⟨S32x2041x128, .f32⟩ : BufTy).Contents (Elt F) → (⟨S32x2041x128, .f32⟩ : BufTy).Contents (Elt F) → (⟨S32x2041x128, .f32⟩ : BufTy).Contents (Elt F)),
    nullary main_cst_7 (constant S_ .f32 0x00000000#32),
    binary main_v39 main_cst_7 main_v40 ((fun x v => Host.reduceAdd x v reducesTo_S32x2041x128_S_d0_1_2 h_S_) : (⟨S32x2041x128, .f32⟩ : BufTy).Contents (Elt F) → (⟨S_, .f32⟩ : BufTy).Contents (Elt F) → (⟨S_, .f32⟩ : BufTy).Contents (Elt F)),
    nullary main_cst_8 (constant S_ .f32 0x4AFF2000#32),
    binary main_v40 main_cst_8 main_v41 (Host.divf : (⟨S_, .f32⟩ : BufTy).Contents (Elt F) → (⟨S_, .f32⟩ : BufTy).Contents (Elt F) → (⟨S_, .f32⟩ : BufTy).Contents (Elt F)) ]

/-! ## The three stretches

The same line cut where the remainder function is called: @main's own operations before the call, the function's body
over that call's buffers, @main's own operations after it. -/

/-- @main's twenty-four operations before the call. -/
abbrev opsA : List (HloOp τ sig (Elt F)) :=
  [
    nullary main_v0 (iotaInDim S2041 32 0),
    unary main_v0 main_v1 (broadcastInDim S2041x1 ![0] bcast_S2041_S2041x1_0 : (⟨S2041, .i32⟩ : BufTy).Contents (Elt F) → (⟨S2041x1, .i32⟩ : BufTy).Contents (Elt F)),
    nullary main_v2 (iotaInDim S8 32 0),
    unary main_v2 main_v3 (broadcastInDim S1x8 ![1] bcast_S8_S1x8_1 : (⟨S8, .i32⟩ : BufTy).Contents (Elt F) → (⟨S1x8, .i32⟩ : BufTy).Contents (Elt F)),
    unary main_v1 main_v4 (broadcastInDim S2041x8 ![0, 1] bcast_S2041x1_S2041x8_0_1 : (⟨S2041x1, .i32⟩ : BufTy).Contents (Elt F) → (⟨S2041x8, .i32⟩ : BufTy).Contents (Elt F)),
    unary main_v3 main_v5 (broadcastInDim S2041x8 ![0, 1] bcast_S1x8_S2041x8_0_1 : (⟨S1x8, .i32⟩ : BufTy).Contents (Elt F) → (⟨S2041x8, .i32⟩ : BufTy).Contents (Elt F)),
    binary main_v4 main_v5 main_v6 (addi : (⟨S2041x8, .i32⟩ : BufTy).Contents (Elt F) → (⟨S2041x8, .i32⟩ : BufTy).Contents (Elt F) → (⟨S2041x8, .i32⟩ : BufTy).Contents (Elt F)),
    nullary main_c (constantI S_ 32 0#32),
    unary main_c main_v7 (broadcastInDim S2041x8 ![] bcast_S_S2041x8 : (⟨S_, .i32⟩ : BufTy).Contents (Elt F) → (⟨S2041x8, .i32⟩ : BufTy).Contents (Elt F)),
    binary main_v6 main_v7 main_v8 (cmpi .slt : (⟨S2041x8, .i32⟩ : BufTy).Contents (Elt F) → (⟨S2041x8, .i32⟩ : BufTy).Contents (Elt F) → (⟨S2041x8, .i1⟩ : BufTy).Contents (Elt F)),
    nullary main_c_0 (constantI S_ 32 2048#32),
    unary main_c_0 main_v9 (broadcastInDim S2041x8 ![] bcast_S_S2041x8 : (⟨S_, .i32⟩ : BufTy).Contents (Elt F) → (⟨S2041x8, .i32⟩ : BufTy).Contents (Elt F)),
    binary main_v6 main_v9 main_v10 (addi : (⟨S2041x8, .i32⟩ : BufTy).Contents (Elt F) → (⟨S2041x8, .i32⟩ : BufTy).Contents (Elt F) → (⟨S2041x8, .i32⟩ : BufTy).Contents (Elt F)),
    ternary main_v8 main_v10 main_v6 main_v11 (select : (⟨S2041x8, .i1⟩ : BufTy).Contents (Elt F) → (⟨S2041x8, .i32⟩ : BufTy).Contents (Elt F) → (⟨S2041x8, .i32⟩ : BufTy).Contents (Elt F) → (⟨S2041x8, .i32⟩ : BufTy).Contents (Elt F)),
    unary main_v11 main_v12 (broadcastInDim S2041x8x1 ![0, 1] bcast_S2041x8_S2041x8x1_0_1 : (⟨S2041x8, .i32⟩ : BufTy).Contents (Elt F) → (⟨S2041x8x1, .i32⟩ : BufTy).Contents (Elt F)),
    binary main_arg0 main_v12 main_v13 ((fun x i => Host.gather gather_S32x2048x128_S2041x8x1_S32x2041x8x128_03_1_n_n_1_2_321128 x i) : (⟨S32x2048x128, .f32⟩ : BufTy).Contents (Elt F) → (⟨S2041x8x1, .i32⟩ : BufTy).Contents (Elt F) → (⟨S32x2041x8x128, .f32⟩ : BufTy).Contents (Elt F)),
    nullary main_cst (constant S_ .f32 0x00000000#32),
    binary main_v13 main_cst main_v14 ((fun x v => Host.reduceAdd x v reducesTo_S32x2041x8x128_S32x2041x128_d2 h_S_) : (⟨S32x2041x8x128, .f32⟩ : BufTy).Contents (Elt F) → (⟨S_, .f32⟩ : BufTy).Contents (Elt F) → (⟨S32x2041x128, .f32⟩ : BufTy).Contents (Elt F)),
    nullary main_cst_1 (constant S_ .f32 0x41000000#32),
    unary main_cst_1 main_v15 (broadcastInDim S32x2041x128 ![] bcast_S_S32x2041x128 : (⟨S_, .f32⟩ : BufTy).Contents (Elt F) → (⟨S32x2041x128, .f32⟩ : BufTy).Contents (Elt F)),
    binary main_v14 main_v15 main_v16 (Host.divf : (⟨S32x2041x128, .f32⟩ : BufTy).Contents (Elt F) → (⟨S32x2041x128, .f32⟩ : BufTy).Contents (Elt F) → (⟨S32x2041x128, .f32⟩ : BufTy).Contents (Elt F)),
    binary main_v16 main_arg1 main_v17 ((fun l r => Host.dotGeneral dot_S32x2041x128_S128x128_S32x2041x128_2_1_01_0_n_n none l r) : (⟨S32x2041x128, .f32⟩ : BufTy).Contents (Elt F) → (⟨S128x128, .f32⟩ : BufTy).Contents (Elt F) → (⟨S32x2041x128, .f32⟩ : BufTy).Contents (Elt F)),
    nullary main_v18 (iotaInDim S2041 32 0),
    nullary main_c_2 (constantI S_ 32 64#32) ]

/-- The remainder function's twenty-one operations over the call's buffers (the fifth is the inner function's select). -/
abbrev opsB : List (HloOp τ sig (Elt F)) :=
  [
    TRef.unary (.of main_c_2 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2041 ![] bcast_S_S2041),
    TRef.binary (.of main_v18 : TRef sig ⟨S2041, .i32⟩) main_call0.v3 main_call0.v4 Host.remsi,
    TRef.nullary main_call0.c_1 (constantI S_ 32 0#32),
    TRef.unary main_call0.c_1 main_call0.v5 (broadcastInDim S2041 ![] bcast_S_S2041),
    TRef.binary main_call0.v4 main_call0.v5 main_call0.v6 (cmpi .ne),
    TRef.nullary main_call0.c_2 (constantI S_ 32 0#32),
    TRef.unary main_call0.c_2 main_call0.v7 (broadcastInDim S2041 ![] bcast_S_S2041),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2041 ![] bcast_S_S2041),
    TRef.binary main_call0.v8 main_call0.v10 main_call0.v11 (cmpi .ne),
    TRef.binary main_call0.v11 main_call0.v6 main_call0.v12 andi,
    TRef.unary main_call0.call0.v0 main_call0.v13 (broadcastInDim S2041 ![] bcast_S_S2041),
    TRef.binary main_call0.v4 main_call0.v13 main_call0.v14 addi,
    TRef.ternary main_call0.v12 main_call0.v14 main_call0.v4 main_call0.v15 select ]

/-- @main's twenty-eight operations after the call. -/
abbrev opsC : List (HloOp τ sig (Elt F)) :=
  [
    unary main_arg2 main_v20 ((transpose S64x128 [1, 0] · transposes_S128x64_S64x128_1_0) : (⟨S128x64, .f32⟩ : BufTy).Contents (Elt F) → (⟨S64x128, .f32⟩ : BufTy).Contents (Elt F)),
    nullary main_c_3 (constantI S_ 32 0#32),
    unary main_c_3 main_v21 (broadcastInDim S2041 ![] bcast_S_S2041 : (⟨S_, .i32⟩ : BufTy).Contents (Elt F) → (⟨S2041, .i32⟩ : BufTy).Contents (Elt F)),
    binary main_v19 main_v21 main_v22 (cmpi .slt : (⟨S2041, .i32⟩ : BufTy).Contents (Elt F) → (⟨S2041, .i32⟩ : BufTy).Contents (Elt F) → (⟨S2041, .i1⟩ : BufTy).Contents (Elt F)),
    nullary main_c_4 (constantI S_ 32 64#32),
    unary main_c_4 main_v23 (broadcastInDim S2041 ![] bcast_S_S2041 : (⟨S_, .i32⟩ : BufTy).Contents (Elt F) → (⟨S2041, .i32⟩ : BufTy).Contents (Elt F)),
    binary main_v19 main_v23 main_v24 (addi : (⟨S2041, .i32⟩ : BufTy).Contents (Elt F) → (⟨S2041, .i32⟩ : BufTy).Contents (Elt F) → (⟨S2041, .i32⟩ : BufTy).Contents (Elt F)),
    ternary main_v22 main_v24 main_v19 main_v25 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    unary main_v25 main_v26 (broadcastInDim S2041x1 ![0] bcast_S2041_S2041x1_0 : (⟨S2041, .i32⟩ : BufTy).Contents (Elt F) → (⟨S2041x1, .i32⟩ : BufTy).Contents (Elt F)),
    binary main_v20 main_v26 main_v27 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    nullary main_c_5 (constantI S_ 32 0#32),
    unary main_c_5 main_v28 (broadcastInDim S2041 ![] bcast_S_S2041 : (⟨S_, .i32⟩ : BufTy).Contents (Elt F) → (⟨S2041, .i32⟩ : BufTy).Contents (Elt F)),
    binary main_v19 main_v28 main_v29 (cmpi .slt : (⟨S2041, .i32⟩ : BufTy).Contents (Elt F) → (⟨S2041, .i32⟩ : BufTy).Contents (Elt F) → (⟨S2041, .i1⟩ : BufTy).Contents (Elt F)),
    nullary main_c_6 (constantI S_ 32 64#32),
    unary main_c_6 main_v30 (broadcastInDim S2041 ![] bcast_S_S2041 : (⟨S_, .i32⟩ : BufTy).Contents (Elt F) → (⟨S2041, .i32⟩ : BufTy).Contents (Elt F)),
    binary main_v19 main_v30 main_v31 (addi : (⟨S2041, .i32⟩ : BufTy).Contents (Elt F) → (⟨S2041, .i32⟩ : BufTy).Contents (Elt F) → (⟨S2041, .i32⟩ : BufTy).Contents (Elt F)),
    ternary main_v29 main_v31 main_v19 main_v32 (select : (⟨S2041, .i1⟩ : BufTy).Contents (Elt F) → (⟨S2041, .i32⟩ : BufTy).Contents (Elt F) → (⟨S2041, .i32⟩ : BufTy).Contents (Elt F) → (⟨S2041, .i32⟩ : BufTy).Contents (Elt F)),
    unary main_v32 main_v33 (broadcastInDim S2041x1 ![0] bcast_S2041_S2041x1_0 : (⟨S2041, .i32⟩ : BufTy).Contents (Elt F) → (⟨S2041x1, .i32⟩ : BufTy).Contents (Elt F)),
    binary main_arg3 main_v33 main_v34 ((fun x i => Host.gather gather_S64x128_S2041x1_S2041x128_1_0_n_n_0_1_1128 x i) : (⟨S64x128, .f32⟩ : BufTy).Contents (Elt F) → (⟨S2041x1, .i32⟩ : BufTy).Contents (Elt F) → (⟨S2041x128, .f32⟩ : BufTy).Contents (Elt F)),
    binary main_v27 main_v34 main_v35 (mulf : (⟨S2041x128, .f32⟩ : BufTy).Contents (Elt F) → (⟨S2041x128, .f32⟩ : BufTy).Contents (Elt F) → (⟨S2041x128, .f32⟩ : BufTy).Contents (Elt F)),
    unary main_v35 main_v36 (broadcastInDim S1x2041x128 ![1, 2] bcast_S2041x128_S1x2041x128_1_2 : (⟨S2041x128, .f32⟩ : BufTy).Contents (Elt F) → (⟨S1x2041x128, .f32⟩ : BufTy).Contents (Elt F)),
    unary main_v36 main_v37 (broadcastInDim S32x2041x128 ![0, 1, 2] bcast_S1x2041x128_S32x2041x128_0_1_2 : (⟨S1x2041x128, .f32⟩ : BufTy).Contents (Elt F) → (⟨S32x2041x128, .f32⟩ : BufTy).Contents (Elt F)),
    binary main_v17 main_v37 main_v38 (subf : (⟨S32x2041x128, .f32⟩ : BufTy).Contents (Elt F) → (⟨S32x2041x128, .f32⟩ : BufTy).Contents (Elt F) → (⟨S32x2041x128, .f32⟩ : BufTy).Contents (Elt F)),
    binary main_v38 main_v38 main_v39 (mulf : (⟨S32x2041x128, .f32⟩ : BufTy).Contents (Elt F) → (⟨S32x2041x128, .f32⟩ : BufTy).Contents (Elt F) → (⟨S32x2041x128, .f32⟩ : BufTy).Contents (Elt F)),
    nullary main_cst_7 (constant S_ .f32 0x00000000#32),
    binary main_v39 main_cst_7 main_v40 ((fun x v => Host.reduceAdd x v reducesTo_S32x2041x128_S_d0_1_2 h_S_) : (⟨S32x2041x128, .f32⟩ : BufTy).Contents (Elt F) → (⟨S_, .f32⟩ : BufTy).Contents (Elt F) → (⟨S_, .f32⟩ : BufTy).Contents (Elt F)),
    nullary main_cst_8 (constant S_ .f32 0x4AFF2000#32),
    binary main_v40 main_cst_8 main_v41 (Host.divf : (⟨S_, .f32⟩ : BufTy).Contents (Elt F) → (⟨S_, .f32⟩ : BufTy).Contents (Elt F) → (⟨S_, .f32⟩ : BufTy).Contents (Elt F)) ]

/-- @main is the three stretches in sequence: unfolding the two functions at their calls peels the program against
    the stretches an operation at a time, the cut at the call keeping the peeling linear. -/
theorem main_chain (c : Dev nD) : main (F := F) c = (Pipeline.chain [seq opsA, seq opsB, seq opsC] :
    Prog (TpuEff nD τ sig (Elt F) (Pipeline.Sig Λ₀ (Fin 0) fun p => (pcfgs (F := F) p).Adm) .tc) PUnit) := by
  chain_rfl

/-- The whole line is the three stretches appended. -/
theorem ops_split : (ops : List (HloOp τ sig (Elt F))) = opsA ++ (opsB ++ (opsC ++ [])) := rfl

/-- @main is that straight line: stretches run one after the other are their concatenation run as one. -/
theorem main_eq (c : Dev nD) : main (F := F) c = seq ops := by
  rw [main_chain, ops_split, seq_append, seq_append, seq_append]
  rfl

/-! ## What the buffers hold after the line -/

set_option maxRecDepth 8192 in
set_option maxHeartbeats 1600000 in
/-- The result buffer holds the composed term: each operation's result at its own buffer is its function of its
    operands' contents, any other buffer keeps what it held; read back from the last operation to the arguments this is
    the term of the four argument arrays, the typed references' transports being the identity at literal references. -/
theorem out_eq (V : Valuation τ sig (Elt F)) :
    after ops V (main_v41 : DevRef τ sig)
      = refOut (V (main_arg0 : DevRef τ sig)) (V (main_arg1 : DevRef τ sig)) (V (main_arg2 : DevRef τ sig))
          (V (main_arg3 : DevRef τ sig)) := by
  after_results_simp
  simp only [TRef.ofBuf, TRef.toBuf, cast_eq]
  unfold refOut meanOf sq agg nk winMean windows winIdx winRows rowIdx kmod krem kdiv
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-! ## The run -/

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    nullary_bufs_sub .., unary_bufs_sub .., binary_bufs_sub .., binary_bufs_sub .., nullary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    unary_bufs_sub .., binary_bufs_sub .., binary_bufs_sub .., nullary_bufs_sub .., binary_bufs_sub .., nullary_bufs_sub ..,
    binary_bufs_sub ..⟩

/-- The run of the reference. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v41).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Hand

end
-- ==== Proof.lean ====
/-
  The kernel computes, per batch row, the sum over all sliding windows (eight consecutive rows, stride one) and all
  output features of the squared deviation between the linearly mapped window mean and a position-indexed target, and
  the host around it adds the 32 per-row sums and divides by the number of squared deviations; the reference gathers
  the windows, averages, maps, subtracts the same target, squares and takes the mean of everything.

  Over the extended reals the two results are one number: the kernel's product with 0.125 is the reference's quotient
  by 8 on every extended real; the kernel contracts the window mean with the transposed matrix, the reference contracts
  it with the matrix's second axis; the target table is built by the same host operations in both programs; and the
  remaining difference is the grouping of one finite sum, which addition on the extended reals does not see.

  Frames: the kernel program's, at both instances, is the generated frame of its one launch; the reference has no
  launch, and its frame is its run with the result dropped. No operation was rewritten by the idealization, so there
  is nothing to preserve.
-/
import proofs.«163653_j2740189135096_1_alg».proof.Defs
import proofs.«163653_j2740189135096_1_alg».proof.Proof.Gen.Kernel
import proofs.«163653_j2740189135096_1_alg».proof.Proof.Gen.Kernel.Skeleton
import proofs.«163653_j2740189135096_1_alg».proof.Proof.Gen.Kernel.Launch
import proofs.«163653_j2740189135096_1_alg».proof.Proof.Gen.Kernel.Points
import proofs.«163653_j2740189135096_1_alg».proof.Proof.Gen.Kernel.Frame
import proofs.«163653_j2740189135096_1_alg».proof.Proof.Gen.KernelIdeal
import proofs.«163653_j2740189135096_1_alg».proof.Proof.Gen.KernelIdeal.Skeleton
import proofs.«163653_j2740189135096_1_alg».proof.Proof.Gen.KernelIdeal.Launch
import proofs.«163653_j2740189135096_1_alg».proof.Proof.Gen.KernelIdeal.Points
import proofs.«163653_j2740189135096_1_alg».proof.Proof.Gen.KernelIdeal.Frame
import proofs.«163653_j2740189135096_1_alg».proof.Proof.Gen.ReferenceIdeal
import proofs.«163653_j2740189135096_1_alg».proof.Proof.Gen.Pre_finite_inputs
import proofs.«163653_j2740189135096_1_alg».proof.Proof.Bridge
import proofs.«163653_j2740189135096_1_alg».proof.Proof.RefRun
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the mean of the per-row sums of squared
    deviations: the kernel program by its launch and the two host operations after it, the reference by its run, and the
    two terms are equal. -/
theorem algebraic : Cert.algebraic_KernelIdeal_ReferenceIdeal := by
  intro m ρ m' ρ' _ hagree
  refine ⟨fun c => Cert.KernelIdeal.Hand.meanOfRows (Cert.KernelIdeal.Hand.outArr m c),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
